-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x20 : Shape := ⟨3, ![4096, 32, 20]⟩
abbrev S1000000x16 : Shape := ⟨2, ![1000000, 16]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x256 : Shape := ⟨2, ![512, 256]⟩
abbrev S256 : Shape := ⟨1, ![256]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S512x256 .f32) (main_arg9 : FVec F S256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S1024 .f32) (main_arg6 : FVec F S1024x512 .f32) (main_arg7 : FVec F S512 .f32) (main_arg8 : FVec F S512x256 .f32) (main_arg9 : FVec F S256 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : IVec S4096x32x20 32) (main_arg1 : FVec F S1000000x16 .f32) (main_arg2 : FVec F S512 .f32) (main_arg3 : FVec F S512 .f32) (main_arg4 : FVec F S512x1024 .f32) (main_arg5 : FVec F S1024 .f32) (main_arg6 : FVec F S1024x512 .f32) (main_arg7 : FVec F S512 .f32) (main_arg8 : FVec F S512x256 .f32) (main_arg9 : FVec F S256 .f32) : IVec S_ 1 :=
  let main_v0 : FVec F S1000000x16 .f32 := Host.absf main_arg1
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_arg8 main_arg9 main_v13 main_v16
-- ==== Kernel.lean ====
abbrev S4096x32x20 : Shape := ⟨3, ![4096, 32, 20]⟩
abbrev S1000000x16 : Shape := ⟨2, ![1000000, 16]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x256 : Shape := ⟨2, ![512, 256]⟩
abbrev S256 : Shape := ⟨1, ![256]⟩
abbrev S_ : Shape := ⟨0, ![]⟩
abbrev S4096x32x20x1 : Shape := ⟨4, ![4096, 32, 20, 1]⟩
abbrev S4096x32x20x16 : Shape := ⟨4, ![4096, 32, 20, 16]⟩
abbrev S4096x32x16 : Shape := ⟨3, ![4096, 32, 16]⟩
abbrev S4096x512 : Shape := ⟨2, ![4096, 512]⟩
abbrev S1x512 : Shape := ⟨2, ![1, 512]⟩
abbrev S512x512 : Shape := ⟨2, ![512, 512]⟩
abbrev S1x1024 : Shape := ⟨2, ![1, 1024]⟩
abbrev S1x256 : Shape := ⟨2, ![1, 256]⟩
abbrev S4096x256 : Shape := ⟨2, ![4096, 256]⟩

abbrev nBuf : Space → Nat
  | .hbm => 48
  | .vmem => 16
  | .smem => 0
  | _ => 0

abbrev bufTy : (tb : Table) → Fin (tcTables nBuf tb) → BufTy
  | .hbm, ⟨0, _⟩ => ⟨S4096x32x20, .i32⟩
  | .hbm, ⟨1, _⟩ => ⟨S1000000x16, .f32⟩
  | .hbm, ⟨2, _⟩ => ⟨S512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S_, .i32⟩
  | .hbm, ⟨11, _⟩ => ⟨S4096x32x20, .i32⟩
  | .hbm, ⟨12, _⟩ => ⟨S4096x32x20, .i1⟩
  | .hbm, ⟨13, _⟩ => ⟨S_, .i32⟩
  | .hbm, ⟨14, _⟩ => ⟨S4096x32x20, .i32⟩
  | .hbm, ⟨15, _⟩ => ⟨S4096x32x20, .i32⟩
  | .hbm, ⟨16, _⟩ => ⟨S4096x32x20, .i32⟩
  | .hbm, ⟨17, _⟩ => ⟨S4096x32x20x1, .i32⟩
  | .hbm, ⟨18, _⟩ => ⟨S4096x32x20x16, .f32⟩
  | .hbm, ⟨19, _⟩ => ⟨S_, .f32⟩
  | .hbm, ⟨20, _⟩ => ⟨S4096x32x16, .f32⟩
  | .hbm, ⟨21, _⟩ => ⟨S4096x512, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S_, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S512x1024, .bf16⟩
  | .hbm, ⟨42, _⟩ => ⟨S1024x512, .bf16⟩
  | .hbm, ⟨43, _⟩ => ⟨S512x256, .bf16⟩
  | .hbm, ⟨44, _⟩ => ⟨S1x1024, .f32⟩
  | .hbm, ⟨45, _⟩ => ⟨S1x512, .f32⟩
  | .hbm, ⟨46, _⟩ => ⟨S1x256, .f32⟩
  | .hbm, ⟨47, _⟩ => ⟨S4096x256, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S1x1024, .f32⟩
  | .local _ .vmem, ⟨10, _⟩ => ⟨S1024x512, .bf16⟩
  | .local _ .vmem, ⟨11, _⟩ => ⟨S1x512, .f32⟩
  | .local _ .vmem, ⟨12, _⟩ => ⟨S512x256, .bf16⟩
  | .local _ .vmem, ⟨13, _⟩ => ⟨S1x256, .f32⟩
  | .local _ .vmem, ⟨14, _⟩ => ⟨S512x256, .f32⟩
  | .local _ .vmem, ⟨15, _⟩ => ⟨S512x256, .f32⟩
  | _, _ => ⟨S4096x32x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S4096x32x20 : S_.BroadcastsInDim S4096x32x20 (![] : Fin 0 → Fin S4096x32x20.rank)
  bcast_S4096x32x20_S4096x32x20x1_0_1_2 : S4096x32x20.BroadcastsInDim S4096x32x20x1 (![0, 1, 2] : Fin 3 → Fin S4096x32x20x1.rank)
  reducesTo_S4096x32x20x16_S4096x32x16_d2 : S4096x32x20x16.ReducesTo [2] S4096x32x16
  h_S_ : 0 < S_.numel
  shapeCasts_S4096x32x16_S4096x512 : S4096x32x16.ShapeCasts S4096x512
  inb_S1x512_S1x512_0_0 : ∀ a, (![0, 0] : Fin 2 → Nat) a + S1x512.size a ≤ S1x512.size a
  h_S1x512 : 0 < S1x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1x512_S1x512 : S1x512.ShapeCasts S1x512
  reduces_S512x512_S512 : S512x512.Reduces [0] S512
  shapeCasts_S512_S1x512 : S512.ShapeCasts S1x512
  bcast_S_S1x512 : S_.BroadcastsInDim S1x512 (![] : Fin 0 → Fin S1x512.rank)
  bitsLt_bf16_f32 : FTy.bits .bf16 < FTy.bits .f32
  shapeCasts_S1024_S1x1024 : S1024.ShapeCasts S1x1024
  shapeCasts_S256_S1x256 : S256.ShapeCasts S1x256
  broadcasts_S1x512_S512x512 : S1x512.Broadcasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  gather_S1000000x16_S4096x32x20x1_S4096x32x20x16_3_0_n_n_0_3_116_wf : GatherDims.WF S1000000x16 S4096x32x20x1 S4096x32x20x16 [3] [0] [] [0] [] 3 ![1, 16]
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x1024.size a
  hwx1_3 : ∀ i : grid1.Coords, EltTy.bits .bf16 = 32 ∨ (Rect.block (s := S512x1024) S512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x512.size a
  hwx1_5 : ∀ i : grid1.Coords, EltTy.bits .bf16 = 32 ∨ (Rect.block (s := S1024x512) S1024x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S512x256.size a
  hwx1_7 : ∀ i : grid1.Coords, EltTy.bits .bf16 = 32 ∨ (Rect.block (s := S512x256) S512x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x256.size a ≤ S4096x256.size a
  hwx1_9 : ∀ i : grid1.Coords, EltTy.bits .f32 = 32 ∨ (Rect.block (s := S4096x256) S512x256.size (cc1_transform_9 i) (hinb1_9 i)).WholeWords (EltTy.packing .f32)

variable [Facts₀]

def gather_S1000000x16_S4096x32x20x1_S4096x32x20x16_3_0_n_n_0_3_116 : GatherDims S1000000x16 S4096x32x20x1 S4096x32x20x16 where
  offsetDims := [3]
  collapsedSliceDims := [0]
  operandBatchingDims := []
  startIndicesBatchingDims := []
  startIndexMap := [0]
  indexVectorDim := 3
  sliceSizes := ![1, 16]
  wf := gather_S1000000x16_S4096x32x20x1_S4096x32x20x16_3_0_n_n_0_3_116_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v8) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9_0) S1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9_1) S1x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S512x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1024x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S512x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S512x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x32x20 : Shape := ⟨3, ![4096, 32, 20]⟩
abbrev S1000000x16 : Shape := ⟨2, ![1000000, 16]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x256 : Shape := ⟨2, ![512, 256]⟩
abbrev S256 : Shape := ⟨1, ![256]⟩
abbrev S_ : Shape := ⟨0, ![]⟩
abbrev S4096x32x20x1 : Shape := ⟨4, ![4096, 32, 20, 1]⟩
abbrev S4096x32x20x16 : Shape := ⟨4, ![4096, 32, 20, 16]⟩
abbrev S4096x32x16 : Shape := ⟨3, ![4096, 32, 16]⟩
abbrev S4096x512 : Shape := ⟨2, ![4096, 512]⟩
abbrev S1x512 : Shape := ⟨2, ![1, 512]⟩
abbrev S4096x1024 : Shape := ⟨2, ![4096, 1024]⟩
abbrev S1x1024 : Shape := ⟨2, ![1, 1024]⟩
abbrev S4096x256 : Shape := ⟨2, ![4096, 256]⟩
abbrev S1x256 : Shape := ⟨2, ![1, 256]⟩

abbrev nBuf : Space → Nat
  | .hbm => 84
  | .vmem => 0
  | .smem => 0
  | _ => 0

abbrev bufTy : (tb : Table) → Fin (tcTables nBuf tb) → BufTy
  | .hbm, ⟨0, _⟩ => ⟨S4096x32x20, .i32⟩
  | .hbm, ⟨1, _⟩ => ⟨S1000000x16, .f32⟩
  | .hbm, ⟨2, _⟩ => ⟨S512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S_, .i32⟩
  | .hbm, ⟨11, _⟩ => ⟨S4096x32x20, .i32⟩
  | .hbm, ⟨12, _⟩ => ⟨S4096x32x20, .i1⟩
  | .hbm, ⟨13, _⟩ => ⟨S_, .i32⟩
  | .hbm, ⟨14, _⟩ => ⟨S4096x32x20, .i32⟩
  | .hbm, ⟨15, _⟩ => ⟨S4096x32x20, .i32⟩
  | .hbm, ⟨16, _⟩ => ⟨S4096x32x20, .i32⟩
  | .hbm, ⟨17, _⟩ => ⟨S4096x32x20x1, .i32⟩
  | .hbm, ⟨18, _⟩ => ⟨S4096x32x20x16, .f32⟩
  | .hbm, ⟨19, _⟩ => ⟨S_, .f32⟩
  | .hbm, ⟨20, _⟩ => ⟨S4096x32x16, .f32⟩
  | .hbm, ⟨21, _⟩ => ⟨S4096x512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S_, .i32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S_, .f32⟩
  | .hbm, ⟨32, _⟩ => ⟨S1x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S512, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S1x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S1x512, .f32⟩
  | .hbm, ⟨58, _⟩ => ⟨S4096x512, .f32⟩
  | .hbm, ⟨59, _⟩ => ⟨S4096x512, .f32⟩
  | .hbm, ⟨60, _⟩ => ⟨S1x512, .f32⟩
  | .hbm, ⟨61, _⟩ => ⟨S4096x512, .f32⟩
  | .hbm, ⟨62, _⟩ => ⟨S4096x512, .f32⟩
  | .hbm, ⟨63, _⟩ => ⟨S1x512, .f32⟩
  | .hbm, ⟨64, _⟩ => ⟨S4096x512, .f32⟩
  | .hbm, ⟨65, _⟩ => ⟨S4096x512, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x512, .f32⟩
  | .hbm, ⟨74, _⟩ => ⟨S1x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S4096x512, .f32⟩
  | .hbm, ⟨79, _⟩ => ⟨S4096x512, .f32⟩
  | .hbm, ⟨80, _⟩ => ⟨S4096x256, .f32⟩
  | .hbm, ⟨81, _⟩ => ⟨S1x256, .f32⟩
  | .hbm, ⟨82, _⟩ => ⟨S4096x256, .f32⟩
  | .hbm, ⟨83, _⟩ => ⟨S4096x256, .f32⟩
  | _, _ => ⟨S4096x32x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_4 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call1_cst : Ref sig .tc := ⟨.hbm, 70, rfl⟩
abbrev main_call1_v0 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call2_cst : Ref sig .tc := ⟨.hbm, 77, rfl⟩
abbrev main_call2_v0 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩

abbrev nD : Nat := 1
abbrev τ : Topo := Topo.v7x

variable {F : FTy → Type} [FloatOps F]

class Facts₀ : Prop where
  bcast_S_S4096x32x20 : S_.BroadcastsInDim S4096x32x20 (![] : Fin 0 → Fin S4096x32x20.rank)
  bcast_S4096x32x20_S4096x32x20x1_0_1_2 : S4096x32x20.BroadcastsInDim S4096x32x20x1 (![0, 1, 2] : Fin 3 → Fin S4096x32x20x1.rank)
  reducesTo_S4096x32x20x16_S4096x32x16_d2 : S4096x32x20x16.ReducesTo [2] S4096x32x16
  h_S_ : 0 < S_.numel
  shapeCasts_S4096x32x16_S4096x512 : S4096x32x16.ShapeCasts S4096x512
  reducesTo_S4096x512_S512_d0 : S4096x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S4096x512_0_1 : S1x512.BroadcastsInDim S4096x512 (![0, 1] : Fin 2 → Fin S4096x512.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  gather_S1000000x16_S4096x32x20x1_S4096x32x20x16_3_0_n_n_0_3_116_wf : GatherDims.WF S1000000x16 S4096x32x20x1 S4096x32x20x16 [3] [0] [] [0] [] 3 ![1, 16]
  dot_S4096x512_S512x1024_S4096x1024_1_0_0_1_n_n_wf : DotDims.WF S4096x512 S512x1024 S4096x1024 [1] [0] [0] [1] [] []
  dot_S4096x1024_S1024x512_S4096x512_1_0_0_1_n_n_wf : DotDims.WF S4096x1024 S1024x512 S4096x512 [1] [0] [0] [1] [] []
  dot_S4096x512_S512x256_S4096x256_1_0_0_1_n_n_wf : DotDims.WF S4096x512 S512x256 S4096x256 [1] [0] [0] [1] [] []

variable [Facts₀]

def gather_S1000000x16_S4096x32x20x1_S4096x32x20x16_3_0_n_n_0_3_116 : GatherDims S1000000x16 S4096x32x20x1 S4096x32x20x16 where
  offsetDims := [3]
  collapsedSliceDims := [0]
  operandBatchingDims := []
  startIndicesBatchingDims := []
  startIndexMap := [0]
  indexVectorDim := 3
  sliceSizes := ![1, 16]
  wf := gather_S1000000x16_S4096x32x20x1_S4096x32x20x16_3_0_n_n_0_3_116_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.Spec.lean ====
/-
  The mathematics of the two programs, as functions of plain extended-real arrays.

  Both programs form the same batch x : [4096, 512] (a row gather summed over twenty hits), normalise every column of it
  by that column's mean and variance over the 4096 rows, scale by gamma and shift by beta, and send the rows through three
  linear layers with a rectifier after the first two.

  They differ in how the normalisation is arranged. One side computes the variance as the mean of squares minus the
  square of the mean, folds gamma and the inverse deviation into one scale, and the mean into one shift:
      x * (gamma * r) + (beta - mean * (gamma * r)),        r = rsqrt (E[x^2] - (E[x])^2 + eps).
  The other computes the variance as the mean of squared deviations and normalises in order:
      (x - mean) * r' * gamma + beta,                        r' = rsqrt (E[(x - E[x])^2] + eps).
  Over the reals the two variances are one number (expand the square; the batch size 4096 is the number of rows), it
  is nonnegative, eps is positive, so r = r' is a real, and the two normal forms agree by distributivity. All of this
  needs x, gamma and beta finite: on the extended reals distributivity fails at the infinities.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An [a, b] array of extended reals. -/
abbrev Mat (a b : Nat) : Type := (⟨2, ![a, b]⟩ : Shape).Idx → EReal
/-- A vector of n extended reals. -/
abbrev Vc (n : Nat) : Type := (⟨1, ![n]⟩ : Shape).Idx → EReal

/-- The batch size 4096, as the float literal both programs divide by. -/
def nB : EReal := Ideal.ofBits .f32 0x45800000#32
/-- The variance's guard, as the float literal both programs add. -/
def eps : EReal := Ideal.ofBits .f32 0x3727C5AC#32

/-- Column d of x summed over the 4096 rows. -/
def colSum (x : Mat 4096 512) (d : Fin 512) : EReal := ∑ b : Fin 4096, x (ix2 b d)
/-- Column d of the squares of x summed over the 4096 rows. -/
def colSumSq (x : Mat 4096 512) (d : Fin 512) : EReal := ∑ b : Fin 4096, x (ix2 b d) * x (ix2 b d)

/-- The mean, from a column's sum. -/
def meanS (s : EReal) : EReal := Ideal.div s nB
/-- Mean of squares minus square of the mean, from a column's sum s and sum of squares q. -/
def varKS (s q : EReal) : EReal := Ideal.div q nB - meanS s * meanS s
/-- gamma times the inverse deviation. -/
def scaleS (s q g : EReal) : EReal := g * Ideal.rsqrt (varKS s q + eps)
/-- beta minus mean times the scale. -/
def shiftS (s q g b : EReal) : EReal := b - meanS s * scaleS s q g

/-- The normalised batch, scale-and-shift arrangement. -/
def xnK (x : Mat 4096 512) (γ β : Vc 512) : Mat 4096 512 := fun i =>
  x i * scaleS (colSum x (i 1)) (colSumSq x (i 1)) (γ (ix1 (i 1)))
    + shiftS (colSum x (i 1)) (colSumSq x (i 1)) (γ (ix1 (i 1))) (β (ix1 (i 1)))

/-- The mean of column d. -/
def mean (x : Mat 4096 512) (d : Fin 512) : EReal := meanS (colSum x d)
/-- The mean of the squared deviations of column d. -/
def varR (x : Mat 4096 512) (d : Fin 512) : EReal :=
  Ideal.div (∑ b : Fin 4096, (x (ix2 b d) - mean x d) * (x (ix2 b d) - mean x d)) nB

/-- The normalised batch, centre-then-scale arrangement. -/
def xnR (x : Mat 4096 512) (γ β : Vc 512) : Mat 4096 512 := fun i =>
  (x i - mean x (i 1)) * Ideal.rsqrt (varR x (i 1) + eps) * γ (ix1 (i 1)) + β (ix1 (i 1))

/-- A linear layer: rows of a against columns of W, plus the bias. -/
def lin {M K N : Nat} (a : Mat M K) (W : Mat K N) (b : Vc N) : Mat M N := fun i =>
  (∑ k : Fin K, a (ix2 (i 0) k) * W (ix2 k (i 1))) + b (ix1 (i 1))

/-- The rectifier. -/
def relu {M N : Nat} (a : Mat M N) : Mat M N := fun i => max (a i) 0

/-- The three layers. -/
def mlp (xn : Mat 4096 512) (W1 : Mat 512 1024) (b1 : Vc 1024) (W2 : Mat 1024 512) (b2 : Vc 512)
    (W3 : Mat 512 256) (b3 : Vc 256) : Mat 4096 256 :=
  lin (relu (lin (relu (lin xn W1 b1)) W2 b2)) W3 b3

end Cert.Spec

end
-- ==== Proof.SpecLaw.lean ====
/-
  THE LAW joining the two arrangements of the normalisation.
  Write n = 4096 for the number of rows, s = sum of a column, q = sum of its squares, mu = s / n.
  (1) sum over rows of (x - mu)^2 = q - 2 mu s + n mu^2 = q - n mu^2, so divided by n it is q / n - mu^2: the two variances
      are one real number v, and v >= 0 as a mean of squares;
  (2) eps > 0, so v + eps > 0 and rsqrt (v + eps) is the real 1 / sqrt (v + eps), the same on both sides;
  (3) x * (g * r) + (b - mu * (g * r)) = (x - mu) * r * g + b over the reals, by distributivity.
  Each step is carried out on real witnesses of x, gamma, beta and pushed back through the coercion to the extended reals.
-/
import proofs.«112534_j3607772528806_1_alg».proof.Proof.Spec
import Mathlib.Tactic.Ring
import Mathlib.Tactic.NormNum
import Mathlib.Tactic.Positivity
import Mathlib.Tactic.Linarith
import Mathlib.Algebra.BigOperators.Ring.Finset
import Mathlib.Algebra.Order.BigOperators.Ring.Finset
import Mathlib.Analysis.SpecialFunctions.Sqrt

noncomputable section

namespace Cert.Spec

open Idealize.ShloMosaic Idealize.ShloMosaic.ValueIdx

/-! ### The two literals -/

/-- The batch-size literal is the real 4096. -/
theorem nB_eq : nB = ((4096 : ℝ) : EReal) := by
  unfold nB
  simp [Ideal.ofBits, Ideal.ieee, -EReal.coe_mul]; norm_num

/-- The guard literal is a positive real: (2^23 + 2606508) * 2^(110 - 127 - 23). -/
theorem eps_eq : ∃ e : ℝ, 0 < e ∧ eps = (e : EReal) := by
  refine ⟨10995116 * (2 : ℝ) ^ (-40 : ℤ), by positivity, ?_⟩
  unfold eps
  simp [Ideal.ofBits, Ideal.ieee, -EReal.coe_mul]

/-! ### The mathematics over the reals -/

/-- Step (1): the mean of squared deviations is the mean of squares minus the square of the mean. -/
theorem var_identity (f : Fin 4096 → ℝ) :
    (∑ k, (f k - (∑ k, f k) * (1 / 4096)) * (f k - (∑ k, f k) * (1 / 4096))) * (1 / 4096)
      = (∑ k, f k * f k) * (1 / 4096) - ((∑ k, f k) * (1 / 4096)) * ((∑ k, f k) * (1 / 4096)) := by
  have h : ∀ k, (f k - (∑ k, f k) * (1 / 4096)) * (f k - (∑ k, f k) * (1 / 4096))
      = f k * f k - 2 * ((∑ k, f k) * (1 / 4096)) * f k
        + ((∑ k, f k) * (1 / 4096)) * ((∑ k, f k) * (1 / 4096)) := fun k => by ring
  simp only [h]
  rw [Finset.sum_add_distrib, Finset.sum_sub_distrib, ← Finset.mul_sum, Finset.sum_const, Finset.card_univ,
    Fintype.card_fin, nsmul_eq_mul]
  push_cast
  ring

/-- The mean of squared deviations is not negative. -/
theorem var_nonneg (f : Fin 4096 → ℝ) (m : ℝ) : 0 ≤ (∑ k, (f k - m) * (f k - m)) * (1 / 4096) := by
  apply mul_nonneg
  · exact Finset.sum_nonneg (fun k _ => mul_self_nonneg _)
  · norm_num

/-! ### Through the coercion -/

/-- A finite sum of coerced reals is the coerced sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Step (2): the inverse square root of a positive real is a real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The law at one entry: a column f of reals, the entry xi, its gamma g and beta b. -/
theorem scalar_law (f : Fin 4096 → ℝ) (xi g b : ℝ) :
    (xi : EReal) * scaleS (∑ k, (f k : EReal)) (∑ k, (f k : EReal) * (f k : EReal)) (g : EReal)
        + shiftS (∑ k, (f k : EReal)) (∑ k, (f k : EReal) * (f k : EReal)) (g : EReal) (b : EReal)
      = ((xi : EReal) - meanS (∑ k, (f k : EReal)))
          * Ideal.rsqrt (Ideal.div (∑ k, ((f k : EReal) - meanS (∑ k, (f k : EReal)))
              * ((f k : EReal) - meanS (∑ k, (f k : EReal)))) nB + eps) * (g : EReal) + (b : EReal) := by
  obtain ⟨e, he, heq⟩ := eps_eq
  unfold shiftS scaleS varKS meanS
  rw [heq, nB_eq]
  simp only [Ideal.div_coe (by norm_num : (4096 : ℝ) ≠ 0), ← EReal.coe_mul, coe_sum, ← EReal.coe_sub,
    ← EReal.coe_add]
  rw [var_identity f]
  have hv : 0 < (∑ k, f k * f k) * (1 / 4096) - ((∑ k, f k) * (1 / 4096)) * ((∑ k, f k) * (1 / 4096)) + e := by
    have := var_nonneg f ((∑ k, f k) * (1 / 4096))
    rw [var_identity f] at this
    linarith
  rw [rsqrt_pos hv]
  simp only [← EReal.coe_mul, ← EReal.coe_sub, ← EReal.coe_add]
  congr 1
  ring

/-- On finite x, gamma and beta the two arrangements of the normalisation are one array. -/
theorem xn_eq (x : Mat 4096 512) (γ β : Vc 512) (hx : ∀ i, ∃ r : ℝ, x i = (r : EReal))
    (hγ : ∀ i, ∃ r : ℝ, γ i = (r : EReal)) (hβ : ∀ i, ∃ r : ℝ, β i = (r : EReal)) :
    xnK x γ β = xnR x γ β := by
  choose xr hxr using hx
  choose gr hgr using hγ
  choose br hbr using hβ
  funext i
  unfold xnK xnR varR mean colSum colSumSq
  simp only [hxr, hgr, hbr]
  exact scalar_law (fun k => xr (ix2 k (i 1))) (xr i) (gr (ix1 (i 1))) (br (ix1 (i 1)))

end Cert.Spec

end
-- ==== Proof.KRegion0.lean ====
/-
  What the statistics region leaves: its two [1, 512] outputs are the column sums of the batch and of its squares.
  The one output block never moves; it is zeroed at the first grid point and every point adds its 512 rows' column sums
  into it, so after the eighth point it holds the sum over all 4096 rows (addition of extended reals is associative and
  commutative, and adding the zero word changes nothing).
-/
import proofs.«112534_j3607772528806_1_alg».proof.Proof.Gen.KernelIdeal.Frame
import proofs.«112534_j3607772528806_1_alg».proof.Proof.Spec
import Idealize.ShloMosaic.Lib.Pipeline.Value
import Idealize.ShloMosaic.Lib.ValueLayout

noncomputable section

namespace Cert.KernelIdeal.KRegion0

open Cert.KernelIdeal Cert.KernelIdeal.Gen
open Idealize.ShloMosaic Idealize.ShloMosaic.ValueIdx Idealize.ShloMosaic.TcCoe Idealize.SL.Sem

/-! ## What one grid point leaves in each output's buffer, for any float values -/

section Pieces
variable {F : FTy → Type} [FloatOps F]

/-- The zero offsets, as a constant function. -/
theorem hz : (![0, 0] : Fin 2 → Nat) = fun _ => 0 := funext fun a => by fin_cases a <;> rfl

/-- At a later point the first output's buffer, holding xo1, is left at xo1 plus the block's column sums. -/
theorem out_B_1 (c : Dev nD) (i : grid0.Coords) (a1 : Memref sig .tc .vmem S512x512 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S512x512 .f32) (xo1 xo2 : Vec F S1x512 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S512x512) hz, View.ld_unit_zero (S := S1x512) hz]

/-- At a later point the second output's buffer, holding xo2, is left at xo2 plus the column sums of the block's squares. -/
theorem out_B_2 (c : Dev nD) (i : grid0.Coords) (a1 : Memref sig .tc .vmem S512x512 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S512x512 .f32) (xo1 xo2 : Vec F S1x512 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S512x512) hz, View.ld_unit_zero (S := S1x512) hz]

/-- At the first point the first output's buffer is zeroed, read back, and left at zero plus the block's column sums. -/
theorem out_A_1 (c : Dev nD) (i : grid0.Coords) (a1 : Memref sig .tc .vmem S512x512 .f32) (h1 : a1.IsWhole)
    (a2 : Memref sig .tc .vmem S1x512 .f32) (h2 : a2.IsWhole) (a3 : Memref sig .tc .vmem S1x512 .f32) (h3 : a3.IsWhole)
    (hc : cond0_0 i) (x : Vec F S512x512 .f32) :
    out0_A_1 c i a1 h1 a2 h2 a3 h3 hc x = k0_pay4 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x512) hz, View.readCov_unit_zero (S := S1x512) _ hz]
  simp only [View.readAt_eq_ld, h1.read_unread, View.ld_unit_zero (S := S512x512) hz, View.ld_unit_zero (S := S1x512) hz]

/-- At the first point the second output's buffer is zeroed, read back, and left at zero plus the column sums of the block's squares. -/
theorem out_A_2 (c : Dev nD) (i : grid0.Coords) (a1 : Memref sig .tc .vmem S512x512 .f32) (h1 : a1.IsWhole)
    (a2 : Memref sig .tc .vmem S1x512 .f32) (h2 : a2.IsWhole) (a3 : Memref sig .tc .vmem S1x512 .f32) (h3 : a3.IsWhole)
    (hc : cond0_0 i) (x : Vec F S512x512 .f32) :
    out0_A_2 c i a1 h1 a2 h2 a3 h3 hc x = k0_pay5 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x512) hz, View.readCov_unit_zero (S := S1x512) _ hz]
  simp only [View.readAt_eq_ld, h1.read_unread, View.ld_unit_zero (S := S512x512) hz, View.ld_unit_zero (S := S1x512) hz]

end Pieces

/-! ## The same read at an index, over the extended reals -/

section AtIndex

/-- A column of a [512, 512] block summed over its rows, read at (0, d) of the [1, 512] row. -/
theorem colsum_apply (x : FVec Ideal S512x512 .f32) (d : Fin 512) :
    shapeCast S1x512 (multiReduction (F := Ideal) .add [0] S512 x 0x00000000#32 reduces_S512x512_S512 (.inl rfl) rfl)
        shapeCasts_S512_S1x512 (ix2 (0 : Fin 1) d)
      = ∑ r : Fin 512, x (ix2 r d) := by
  refine (shapeCast_a_1a_apply _ _ (0 : Fin 1) d).trans ?_
  refine (Ideal.multiReduction_add_single x 0x00000000#32 reduces_S512x512_S512 (.inl rfl) rfl (ix1 d)).trans ?_
  refine Finset.sum_congr rfl fun r _ => congrArg x ?_
  funext a
  match a with
  | ⟨0, _⟩ => rfl
  | ⟨1, _⟩ => rfl

/-- The first update at (0, d): what was there plus column d of the block summed over its rows. -/
theorem pay4_apply (x : Vec Ideal S512x512 .f32) (xo : Vec Ideal S1x512 .f32) (d : Fin 512) :
    k0_pay4 x xo (ix2 (0 : Fin 1) d) = xo (ix2 (0 : Fin 1) d) + ∑ r : Fin 512, x (ix2 r d) := by
  unfold k0_pay4 k0_pay3
  dsimp only
  simp only [shapeCast_self]
  exact (addf_apply _ _ _).trans (congrArg (xo (ix2 (0 : Fin 1) d) + ·) (colsum_apply x d))

/-- The second update at (0, d): what was there plus the squares of column d of the block summed over its rows. -/
theorem pay5_apply (x : Vec Ideal S512x512 .f32) (xo : Vec Ideal S1x512 .f32) (d : Fin 512) :
    k0_pay5 x xo (ix2 (0 : Fin 1) d) = xo (ix2 (0 : Fin 1) d) + ∑ r : Fin 512, x (ix2 r d) * x (ix2 r d) := by
  unfold k0_pay5 k0_pay3
  dsimp only
  simp only [shapeCast_self]
  exact (addf_apply _ _ _).trans (congrArg (xo (ix2 (0 : Fin 1) d) + ·) ((colsum_apply (mulf x x) d).trans rfl))

/-- The zero row is zero everywhere. -/
theorem pay1_apply (d : Fin 512) : (k0_pay1 (F := Ideal)) (ix2 (0 : Fin 1) d) = 0 := by
  unfold k0_pay1
  exact Ideal.ofBits_zero_f32

theorem pay2_apply (d : Fin 512) : (k0_pay2 (F := Ideal)) (ix2 (0 : Fin 1) d) = 0 := by
  unfold k0_pay2
  exact Ideal.ofBits_zero_f32

end AtIndex

/-! ## The outputs after each point, by recursion on the point -/

section Fold
variable {F : FTy → Type} [FloatOps F]
variable (V : (c : Dev nD) → (b : Ref sig .tc) → Buf (Elt F) ((c : Thread nD τ).loc b))

/-- After the first point each output holds the zero row plus the first block's column sums. -/
theorem outsAt_zero (c : Dev nD) (h : 0 < cfg0.N) :
    outsAt0 V c 0 h = (k0_pay4 (iblk0 V c 0 ⟨0, h⟩) (k0_pay1 (F := F)), k0_pay5 (iblk0 V c 0 ⟨0, h⟩) (k0_pay2 (F := F))) := by
  rw [outsAt0_A V c ⟨0, h⟩ rfl, out_A_1, out_A_2]

/-- After a later point each output holds what it held plus that block's column sums. -/
theorem outsAt_succ (c : Dev nD) (n : ℕ) (h : n + 1 < cfg0.N) :
    outsAt0 V c (n + 1) h = (k0_pay4 (iblk0 V c 0 ⟨n + 1, h⟩) (outsAt0 V c n (Nat.lt_of_succ_lt h)).1,
      k0_pay5 (iblk0 V c 0 ⟨n + 1, h⟩) (outsAt0 V c n (Nat.lt_of_succ_lt h)).2) := by
  have hN : cfg0.N = 8 := N_0
  have hB : ¬(⟨n + 1, h⟩ : Fin cfg0.N).val % 8 = 0 := by dsimp only; omega
  rw [outsAt0_B V c ⟨n + 1, h⟩ hB, out_B_1, out_B_2]
  rfl

end Fold

/-! ## The running sums, and the regrouping of the 4096 rows into eight blocks -/

variable (m : (ℓ : Loc nD τ sig) → Buf (Elt Ideal) ℓ) (ρ : Dev nD → PrngReg)

/-- The batch as the statistics region finds it. -/
abbrev xIn (c : Dev nD) : Spec.Mat 4096 512 := V1 m ρ c main_v8

/-- The rows 512 t .. 512 t + 511 of the batch: the block the region reads at point t. -/
abbrev xblk (c : Dev nD) (t : Fin cfg0.N) : Vec Ideal S512x512 .f32 := iblk0 (V1 m ρ) c 0 t

/-- Entry (r, d) of block t is entry (512 t + r, d) of the batch. -/
theorem xblk_apply (c : Dev nD) (t : Fin cfg0.N) (r d : Fin 512) (b : Fin 4096) (hb : b.val = 512 * t.val + r.val) :
    xblk m ρ c t (ix2 r d) = xIn m ρ c (ix2 b d) := by
  have hi : win0_0.index t 0 = t.val ∧ win0_0.index t 1 = 0 := by
    rcases fin_N0 t with rfl | rfl | rfl | rfl | rfl | rfl | rfl | rfl <;> decide
  unfold xblk iblk0
  rw [View.read_apply]
  show V1 m ρ c main_v8 _ = V1 m ρ c main_v8 _
  congr 1
  funext a
  apply Fin.ext
  match a with
  | ⟨0, _⟩ => show win0_0.index t 0 * 512 + 1 * r.val = b.val; rw [hi.1, hb]; omega
  | ⟨1, _⟩ => show win0_0.index t 1 * 512 + 1 * d.val = d.val; rw [hi.2]; omega

/-- Column d summed over the rows of block t (zero past the grid). -/
def blkSum (c : Dev nD) (d : Fin 512) (t : ℕ) : EReal :=
  if h : t < cfg0.N then ∑ r : Fin 512, xblk m ρ c ⟨t, h⟩ (ix2 r d) else 0

/-- The squares of column d summed over the rows of block t (zero past the grid). -/
def blkSumSq (c : Dev nD) (d : Fin 512) (t : ℕ) : EReal :=
  if h : t < cfg0.N then ∑ r : Fin 512, xblk m ρ c ⟨t, h⟩ (ix2 r d) * xblk m ρ c ⟨t, h⟩ (ix2 r d) else 0

theorem blkSum_of_lt (c : Dev nD) (d : Fin 512) (t : ℕ) (h : t < cfg0.N) :
    blkSum m ρ c d t = ∑ r : Fin 512, xblk m ρ c ⟨t, h⟩ (ix2 r d) := dif_pos h

theorem blkSumSq_of_lt (c : Dev nD) (d : Fin 512) (t : ℕ) (h : t < cfg0.N) :
    blkSumSq m ρ c d t = ∑ r : Fin 512, xblk m ρ c ⟨t, h⟩ (ix2 r d) * xblk m ρ c ⟨t, h⟩ (ix2 r d) := dif_pos h

/-- After point n the first output holds, in column d, the sum of that column over the first n + 1 blocks. -/
theorem acc_sum (c : Dev nD) (d : Fin 512) : ∀ (n : ℕ) (h : n < cfg0.N),
    (outsAt0 (V1 m ρ) c n h).1 (ix2 (0 : Fin 1) d) = ∑ t ∈ Finset.range (n + 1), blkSum m ρ c d t
  | 0, h => by
    rw [outsAt_zero (V1 m ρ) c h]
    dsimp only
    refine (pay4_apply (xblk m ρ c ⟨0, h⟩) (k0_pay1 (F := Ideal)) d).trans ?_
    rw [pay1_apply, zero_add, Finset.sum_range_one, blkSum_of_lt m ρ c d 0 h]
  | n + 1, h => by
    rw [outsAt_succ (V1 m ρ) c n h]
    dsimp only
    refine (pay4_apply (xblk m ρ c ⟨n + 1, h⟩) (outsAt0 (V1 m ρ) c n (Nat.lt_of_succ_lt h)).1 d).trans ?_
    rw [acc_sum c d n (Nat.lt_of_succ_lt h), Finset.sum_range_succ _ (n + 1), blkSum_of_lt m ρ c d (n + 1) h]

/-- After point n the second output holds, in column d, the sum of that column's squares over the first n + 1 blocks. -/
theorem acc_sumsq (c : Dev nD) (d : Fin 512) : ∀ (n : ℕ) (h : n < cfg0.N),
    (outsAt0 (V1 m ρ) c n h).2 (ix2 (0 : Fin 1) d) = ∑ t ∈ Finset.range (n + 1), blkSumSq m ρ c d t
  | 0, h => by
    rw [outsAt_zero (V1 m ρ) c h]
    dsimp only
    refine (pay5_apply (xblk m ρ c ⟨0, h⟩) (k0_pay2 (F := Ideal)) d).trans ?_
    rw [pay2_apply, zero_add, Finset.sum_range_one, blkSumSq_of_lt m ρ c d 0 h]
  | n + 1, h => by
    rw [outsAt_succ (V1 m ρ) c n h]
    dsimp only
    refine (pay5_apply (xblk m ρ c ⟨n + 1, h⟩) (outsAt0 (V1 m ρ) c n (Nat.lt_of_succ_lt h)).2 d).trans ?_
    rw [acc_sumsq c d n (Nat.lt_of_succ_lt h), Finset.sum_range_succ _ (n + 1), blkSumSq_of_lt m ρ c d (n + 1) h]

/-- Eight blocks of 512 rows are the 4096 rows. -/
def rowEquiv : Fin 8 × Fin 512 ≃ Fin 4096 := finProdFinEquiv

theorem rowEquiv_val (t : Fin 8) (r : Fin 512) : (rowEquiv (t, r)).val = 512 * t.val + r.val := by
  show r.val + 512 * t.val = _
  omega

/-- The eight blocks' sums of column d add up to the column's sum over all 4096 rows. -/
theorem total_sum (c : Dev nD) (d : Fin 512) :
    ∑ t ∈ Finset.range 8, blkSum m ρ c d t = Spec.colSum (xIn m ρ c) d := by
  unfold Spec.colSum
  rw [Finset.sum_range, ← Equiv.sum_comp rowEquiv (fun b => xIn m ρ c (ix2 b d)), Fintype.sum_prod_type]
  refine Finset.sum_congr rfl fun t _ => ?_
  have ht : t.val < cfg0.N := lt_of_lt_of_eq t.isLt N_0.symm
  rw [blkSum_of_lt m ρ c d t.val ht]
  refine Finset.sum_congr rfl fun r _ => ?_
  exact xblk_apply m ρ c ⟨t.val, ht⟩ r d (rowEquiv (t, r)) (rowEquiv_val t r)

/-- Likewise for the squares. -/
theorem total_sumsq (c : Dev nD) (d : Fin 512) :
    ∑ t ∈ Finset.range 8, blkSumSq m ρ c d t = Spec.colSumSq (xIn m ρ c) d := by
  unfold Spec.colSumSq
  rw [Finset.sum_range, ← Equiv.sum_comp rowEquiv (fun b => xIn m ρ c (ix2 b d) * xIn m ρ c (ix2 b d)), Fintype.sum_prod_type]
  refine Finset.sum_congr rfl fun t _ => ?_
  have ht : t.val < cfg0.N := lt_of_lt_of_eq t.isLt N_0.symm
  rw [blkSumSq_of_lt m ρ c d t.val ht]
  refine Finset.sum_congr rfl fun r _ => ?_
  rw [xblk_apply m ρ c ⟨t.val, ht⟩ r d (rowEquiv (t, r)) (rowEquiv_val t r)]

/-! ## The arrays the region leaves -/

/-- The last point is the eighth. -/
theorem seven_lt : 7 < cfg0.N := lt_of_lt_of_eq (by decide) N_0.symm

/-- What the first output's buffer holds after the last point. -/
abbrev sumRow (c : Dev nD) : Buf (Elt Ideal) ((c : Thread nD τ).loc main_v9_0) := (outsAt0 (V1 m ρ) c 7 seven_lt).1
/-- What the second output's buffer holds after the last point. -/
abbrev sumSqRow (c : Dev nD) : Buf (Elt Ideal) ((c : Thread nD τ).loc main_v9_1) := (outsAt0 (V1 m ρ) c 7 seven_lt).2

/-- The one write-back of the first output, at the last point, writes its buffer: its block is the whole array. -/
theorem flushed_sum (c : Dev nD) (t : Fin cfg0.N) (hf : (cfg0.win 1).flush t = true) :
    (dat0 (V1 m ρ) c).flushed 1 t = ((cfg0.win 1).blk t).view.read (Elt Ideal) (sumRow m ρ c) := by
  have hN : cfg0.N = 8 := N_0
  have h7 : t.val = 7 := by have := (flush0_1 t).mp hf; have := t.isLt; omega
  obtain rfl : t = t0_7 := Fin.ext h7
  show (cfg0.win 1).cut (grid0.coords t0_7) ((dat0 (V1 m ρ) c).after 1 t0_7) = _
  rw [after0_1]
  have hz' : (fun a => win0_1.index t0_7 a * main_v9_0.ty.shape.size a) = fun _ => 0 := funext fun a => by fin_cases a <;> decide
  exact (Memref.read_access_unit_zero (Elt Ideal) main_v9_0 hz' (fun a => by rw [congrFun hz' a]; simp) (sumRow m ρ c)).symm

/-- Likewise for the second output. -/
theorem flushed_sumsq (c : Dev nD) (t : Fin cfg0.N) (hf : (cfg0.win 2).flush t = true) :
    (dat0 (V1 m ρ) c).flushed 2 t = ((cfg0.win 2).blk t).view.read (Elt Ideal) (sumSqRow m ρ c) := by
  have hN : cfg0.N = 8 := N_0
  have h7 : t.val = 7 := by have := (flush0_2 t).mp hf; have := t.isLt; omega
  obtain rfl : t = t0_7 := Fin.ext h7
  show (cfg0.win 2).cut (grid0.coords t0_7) ((dat0 (V1 m ρ) c).after 2 t0_7) = _
  rw [after0_2]
  have hz' : (fun a => win0_2.index t0_7 a * main_v9_1.ty.shape.size a) = fun _ => 0 := funext fun a => by fin_cases a <;> decide
  exact (Memref.read_access_unit_zero (Elt Ideal) main_v9_1 hz' (fun a => by rw [congrFun hz' a]; simp) (sumSqRow m ρ c)).symm

/-- So the first output array ends holding its buffer's contents after the last point. -/
theorem final_sum (c : Dev nD) : (dat0 (V1 m ρ) c).arrAt 1 cfg0.N = sumRow m ρ c :=
  (dat0 (V1 m ρ) c).arrAt_eq_of_cover 1 (sumRow m ρ c) (flushed_sum m ρ c) fun i =>
    ⟨t0_7, (flush0_1 t0_7).mpr rfl, by
      show i ∈ ((View.whole main_v9_0).slice (win0_1.rect t0_7)).set
      rw [View.set_slice_whole, Rect.mem_set_unit]
      intro a
      have h0 : (i 0 : Nat) < 1 := (i 0).isLt
      have h1 : (i 1 : Nat) < 512 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 512 from by decide +kernel]; omega⟩

/-- Likewise for the second output. -/
theorem final_sumsq (c : Dev nD) : (dat0 (V1 m ρ) c).arrAt 2 cfg0.N = sumSqRow m ρ c :=
  (dat0 (V1 m ρ) c).arrAt_eq_of_cover 2 (sumSqRow m ρ c) (flushed_sumsq m ρ c) fun i =>
    ⟨t0_7, (flush0_2 t0_7).mpr rfl, by
      show i ∈ ((View.whole main_v9_1).slice (win0_2.rect t0_7)).set
      rw [View.set_slice_whole, Rect.mem_set_unit]
      intro a
      have h0 : (i 0 : Nat) < 1 := (i 0).isLt
      have h1 : (i 1 : Nat) < 512 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 512 from by decide +kernel]; omega⟩

/-- The first output is the column sums. -/
theorem sum_value (c : Dev nD) (d : Fin 512) :
    (V2 m ρ c main_v9_0 : Spec.Mat 1 512) (ix2 0 d) = Spec.colSum (xIn m ρ c) d := by
  have e : V2 m ρ c main_v9_0 = sumRow m ρ c := (W2_arr m ρ c 1).trans (final_sum m ρ c)
  refine (congrFun e (ix2 (0 : Fin 1) d)).trans ?_
  exact (acc_sum m ρ c d 7 seven_lt).trans (total_sum m ρ c d)

/-- The second output is the column sums of the squares. -/
theorem sumsq_value (c : Dev nD) (d : Fin 512) :
    (V2 m ρ c main_v9_1 : Spec.Mat 1 512) (ix2 0 d) = Spec.colSumSq (xIn m ρ c) d := by
  have e : V2 m ρ c main_v9_1 = sumSqRow m ρ c := (W2_arr m ρ c 2).trans (final_sumsq m ρ c)
  refine (congrFun e (ix2 (0 : Fin 1) d)).trans ?_
  exact (acc_sumsq m ρ c d 7 seven_lt).trans (total_sumsq m ρ c d)

/-- The region only reads the batch. -/
theorem x_kept (c : Dev nD) : (V2 m ρ c main_v8 : Spec.Mat 4096 512) = xIn m ρ c :=
  (W2_arr m ρ c 0).trans (((dat0 (V1 m ρ) c).arrAt_in 0 rfl _).trans (A_eq0 (V1 m ρ) c 0))

end Cert.KernelIdeal.KRegion0

end
-- ==== Proof.KFront.lean ====
/-
  The batch both regions read: every index below zero wrapped by the table's height, the table's rows gathered at the
  indices, the twenty hits of each (sample, feature) summed, and the (feature, lane) pairs laid out along one axis of 512.
  Stated once as a function of the index array and the table, so that what is proved about it (what region 0 finds,
  finiteness on a finite table) is proved about one term.
-/
import proofs.«112534_j3607772528806_1_alg».proof.KernelIdeal

noncomputable section

namespace Cert.KernelIdeal.KFront

open Cert.KernelIdeal Idealize.ShloMosaic
open Facts₀

variable {F : FTy → Type} [FloatOps F] [Facts]

/-- A negative index counts from the table's end. -/
def wrapIdx (a0 : (⟨S4096x32x20, .i32⟩ : BufTy).Contents (Elt F)) : (⟨S4096x32x20, .i32⟩ : BufTy).Contents (Elt F) :=
  select (cmpi .slt a0 (broadcastInDim S4096x32x20 ![] bcast_S_S4096x32x20 (constantI S_ 32 0#32)))
    (addi a0 (broadcastInDim S4096x32x20 ![] bcast_S_S4096x32x20 (constantI S_ 32 1000000#32))) a0

/-- The gathered rows, one per (sample, feature, hit). -/
def rowsOf (a0 : (⟨S4096x32x20, .i32⟩ : BufTy).Contents (Elt F)) (a1 : (⟨S1000000x16, .f32⟩ : BufTy).Contents (Elt F)) :
    (⟨S4096x32x20x16, .f32⟩ : BufTy).Contents (Elt F) :=
  Host.gather gather_S1000000x16_S4096x32x20x1_S4096x32x20x16_3_0_n_n_0_3_116 a1
    (broadcastInDim S4096x32x20x1 ![0, 1, 2] bcast_S4096x32x20_S4096x32x20x1_0_1_2 (wrapIdx a0))

/-- The batch x : [4096, 512]. -/
def xFront (a0 : (⟨S4096x32x20, .i32⟩ : BufTy).Contents (Elt F)) (a1 : (⟨S1000000x16, .f32⟩ : BufTy).Contents (Elt F)) :
    (⟨S4096x512, .f32⟩ : BufTy).Contents (Elt F) :=
  shapeCast S4096x512
    (Host.reduceAdd (rowsOf a0 a1) (constant S_ .f32 0x00000000#32) reducesTo_S4096x32x20x16_S4096x32x16_d2 h_S_)
    shapeCasts_S4096x32x16_S4096x512

end Cert.KernelIdeal.KFront

end
-- ==== Proof.KHost.lean ====
/-
  The host operations around the two regions, read at an index.
  Before the first region: the batch is the gather-and-sum term of the index array and the table.
  Between the regions: from the column sums s and sums of squares q the host forms, per column, the mean s / n, the
  variance q / n - mean^2, the scale gamma * rsqrt (variance + eps) and the shift beta - mean * scale; it narrows the
  three weight matrices (no change of value on the extended reals) and lays each bias out as a one-row array.
-/
import proofs.«112534_j3607772528806_1_alg».proof.Proof.Gen.KernelIdeal.Frame
import proofs.«112534_j3607772528806_1_alg».proof.Proof.Spec
import proofs.«112534_j3607772528806_1_alg».proof.Proof.KFront
import Idealize.ShloMosaic.Lib.StableHlo.Run
import Idealize.ShloMosaic.Lib.ValueIdx
import Idealize.ShloMosaic.Lib.Pipeline.Value

noncomputable section

namespace Cert.KernelIdeal.KHost

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg)

/-! ## A vector laid out as one row -/

/-- An [n] vector recast as the one row of a [1, n] array reads, at (u, p), the vector at p: the row-major position of
    (u, p) is u * n + p with u = 0. -/
theorem shapeCast_n_1n_apply {α : Type} {n : ℕ} (x : (⟨1, ![n]⟩ : Shape).Idx → α)
    (h : (⟨1, ![n]⟩ : Shape).ShapeCasts ⟨2, ![1, n]⟩) (u : Fin 1) (p : Fin n) :
    shapeCast ⟨2, ![1, n]⟩ x h (ix2 u p) = x (ix1 p) :=
  shapeCast_apply x h _ _ (by
    have hu : u.val = 0 := by omega
    rw [Shape.rowMajor_val_two, Shape.rowMajor_val_one]
    show p.val = u.val * n + p.val
    rw [hu, Nat.zero_mul, Nat.zero_add])

/-! ## The launch's arguments are still the launch's at the first region's exit -/

/-- No operation before the first region writes a reference that is none of their twelve results. -/
theorem ops0_not_mem (b : Ref sig .tc)
    (h : b ≠ main_c ∧ b ≠ main_v0 ∧ b ≠ main_v1 ∧ b ≠ main_c_0 ∧ b ≠ main_v2 ∧ b ≠ main_v3 ∧ b ≠ main_v4 ∧ b ≠ main_v5
      ∧ b ≠ main_v6 ∧ b ≠ main_cst ∧ b ≠ main_v7 ∧ b ≠ main_v8) :
    ∀ op ∈ (hostOps0 : List (HloOp τ sig (Elt Ideal))), Proc.devRef .tc b ∉ op.writes := by
  obtain ⟨h1, h2, h3, h4, h5, h6, h7, h8, h9, h10, h11, h12⟩ := h
  refine List.forall_iff_forall_mem.mp ?_
  simp only [hostOps0, List.Forall, StableHlo.nullary_writes, StableHlo.unary_writes, StableHlo.binary_writes,
    StableHlo.ternary_writes, StableHlo.reshape_writes, Finset.mem_singleton]
  exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8,
    StableHlo.devRef_ne_of_ne h9, StableHlo.devRef_ne_of_ne h10, StableHlo.devRef_ne_of_ne h11, StableHlo.devRef_ne_of_ne h12⟩

/-- A buffer that is no array of the first region, and that no operation before the region writes, holds at the
    region's exit what the launch memory holds. -/
theorem arg_kept (c : Dev nD) (b : Ref sig .tc) (h0 : ∀ w, Pipeline.arrRef spec0 w ≠ b)
    (h1 : ∀ op ∈ (hostOps0 : List (HloOp τ sig (Elt Ideal))), Proc.devRef .tc b ∉ op.writes) :
    W2 m ρ c (Proc.devRef .tc b) = m ((c.tc : Thread nD τ).loc b) :=
  calc W2 m ρ c (Proc.devRef .tc b)
    _ = W1 m ρ c (Proc.devRef .tc b) := W2_of_ne m ρ c b h0
    _ = W0 m ρ c (Proc.devRef .tc b) := StableHlo.after_of_forall_not_mem (b := Proc.devRef .tc b) _ _ h1
    _ = m ((c.tc : Thread nD τ).loc b) := rfl

/-! ## The scale and shift rows as functions of the two sum rows, gamma and beta -/

/-- The batch size as the one-row array the operations divide by. -/
abbrev nRow : Spec.Mat 1 512 :=
  broadcastInDim S1x512 ![] bcast_S_S1x512 (constant (F := Ideal) S_ .f32 0x45800000#32)

/-- The scale row the operations form from the row of column sums s, the row of sums of squares q and gamma:
    gamma laid out as a row, times rsqrt (q / n - (s / n) * (s / n) + eps). -/
def scaleRow (s q : Spec.Mat 1 512) (γ : Spec.Vc 512) : Spec.Mat 1 512 :=
  mulf (F := Ideal) (s := S1x512) (φ := .f32) (shapeCast S1x512 γ shapeCasts_S512_S1x512)
    (Host.rsqrt (F := Ideal) (s := S1x512) (φ := .f32)
      (addf (F := Ideal) (s := S1x512) (φ := .f32)
        (subf (F := Ideal) (s := S1x512) (φ := .f32)
          (Host.divf (F := Ideal) (s := S1x512) (φ := .f32) q nRow)
          (mulf (F := Ideal) (s := S1x512) (φ := .f32)
            (Host.divf (F := Ideal) (s := S1x512) (φ := .f32) s nRow)
            (Host.divf (F := Ideal) (s := S1x512) (φ := .f32) s nRow)))
        (broadcastInDim S1x512 ![] bcast_S_S1x512 (constant (F := Ideal) S_ .f32 0x3727C5AC#32))))

/-- The shift row: beta laid out as a row, minus (s / n) times the scale row. -/
def shiftRow (s q : Spec.Mat 1 512) (γ β : Spec.Vc 512) : Spec.Mat 1 512 :=
  subf (F := Ideal) (s := S1x512) (φ := .f32) (shapeCast S1x512 β shapeCasts_S512_S1x512)
    (mulf (F := Ideal) (s := S1x512) (φ := .f32)
      (Host.divf (F := Ideal) (s := S1x512) (φ := .f32) s nRow) (scaleRow s q γ))

/-- The scale row at column d is the scale of that column's two sums and gamma at d: every operation of the row is
    elementwise, a broadcast scalar reads the scalar, and gamma's row reads gamma. -/
theorem scaleRow_apply (s q : Spec.Mat 1 512) (γ : Spec.Vc 512) (d : Fin 512) :
    scaleRow s q γ (ix2 0 d) = Spec.scaleS (s (ix2 0 d)) (q (ix2 0 d)) (γ (ix1 d)) := by
  unfold scaleRow Spec.scaleS Spec.varKS Spec.meanS Spec.nB Spec.eps
  rw [mulf_apply, shapeCast_n_1n_apply]
  rfl

/-- The shift row at column d is the shift of that column's two sums, gamma at d and beta at d. -/
theorem shiftRow_apply (s q : Spec.Mat 1 512) (γ β : Spec.Vc 512) (d : Fin 512) :
    shiftRow s q γ β (ix2 0 d) = Spec.shiftS (s (ix2 0 d)) (q (ix2 0 d)) (γ (ix1 d)) (β (ix1 d)) := by
  unfold shiftRow Spec.shiftS Spec.meanS Spec.nB
  rw [subf_apply, mulf_apply, shapeCast_n_1n_apply, scaleRow_apply]
  rfl

/-! ## The ten readings -/

/-- What the first region finds as its input is the batch term of the launch's index array and table. -/
theorem x_value (c : Dev nD) :
    (V1 m ρ c main_v8 : Spec.Mat 4096 512)
      = KFront.xFront (F := Ideal) (m ((c.tc : Thread nD τ).loc main_arg0)) (m ((c.tc : Thread nD τ).loc main_arg1)) := by
  show StableHlo.after hostOps0 (W0 m ρ c) (Proc.devRef .tc main_v8) = _
  after_results
  unfold KFront.xFront KFront.rowsOf KFront.wrapIdx
  rfl

/-- No host operation between the regions writes the batch. -/
theorem x_kept (c : Dev nD) : (V3 m ρ c main_v8 : Spec.Mat 4096 512) = V2 m ρ c main_v8 := by
  show StableHlo.after hostOps1 (W2 m ρ c) (Proc.devRef .tc main_v8) = W2 m ρ c (Proc.devRef .tc main_v8)
  exact StableHlo.after_of_forall_not_mem (b := Proc.devRef .tc main_v8) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- The scale row. -/
theorem scale_value (c : Dev nD) (d : Fin 512) :
    (V3 m ρ c main_v20 : Spec.Mat 1 512) (ix2 0 d)
      = Spec.scaleS ((V2 m ρ c main_v9_0 : Spec.Mat 1 512) (ix2 0 d)) ((V2 m ρ c main_v9_1 : Spec.Mat 1 512) (ix2 0 d))
          ((m ((c.tc : Thread nD τ).loc main_arg2) : Spec.Vc 512) (ix1 d)) := by
  have e : @Eq (Spec.Mat 1 512) (V3 m ρ c main_v20)
      (scaleRow (V2 m ρ c main_v9_0) (V2 m ρ c main_v9_1) (m ((c.tc : Thread nD τ).loc main_arg2))) := by
    show StableHlo.after hostOps1 (W2 m ρ c) (Proc.devRef .tc main_v20) = _
    after_results
    rw [arg_kept m ρ c main_arg2 (by decide) (ops0_not_mem main_arg2 (by decide))]
    rfl
  rw [e]
  exact scaleRow_apply _ _ _ d

/-- The shift row. -/
theorem shift_value (c : Dev nD) (d : Fin 512) :
    (V3 m ρ c main_v23 : Spec.Mat 1 512) (ix2 0 d)
      = Spec.shiftS ((V2 m ρ c main_v9_0 : Spec.Mat 1 512) (ix2 0 d)) ((V2 m ρ c main_v9_1 : Spec.Mat 1 512) (ix2 0 d))
          ((m ((c.tc : Thread nD τ).loc main_arg2) : Spec.Vc 512) (ix1 d))
          ((m ((c.tc : Thread nD τ).loc main_arg3) : Spec.Vc 512) (ix1 d)) := by
  have e : @Eq (Spec.Mat 1 512) (V3 m ρ c main_v23)
      (shiftRow (V2 m ρ c main_v9_0) (V2 m ρ c main_v9_1) (m ((c.tc : Thread nD τ).loc main_arg2))
        (m ((c.tc : Thread nD τ).loc main_arg3))) := by
    show StableHlo.after hostOps1 (W2 m ρ c) (Proc.devRef .tc main_v23) = _
    after_results
    rw [arg_kept m ρ c main_arg2 (by decide) (ops0_not_mem main_arg2 (by decide)),
      arg_kept m ρ c main_arg3 (by decide) (ops0_not_mem main_arg3 (by decide))]
    rfl
  rw [e]
  exact shiftRow_apply _ _ _ _ d

/-- The narrowed weights are the weights. -/
theorem w1_value (c : Dev nD) : (V3 m ρ c main_v24 : Spec.Mat 512 1024) = m ((c.tc : Thread nD τ).loc main_arg4) := by
  show StableHlo.after hostOps1 (W2 m ρ c) (Proc.devRef .tc main_v24) = _
  after_results
  rw [arg_kept m ρ c main_arg4 (by decide) (ops0_not_mem main_arg4 (by decide))]
  rfl
theorem w2_value (c : Dev nD) : (V3 m ρ c main_v25 : Spec.Mat 1024 512) = m ((c.tc : Thread nD τ).loc main_arg6) := by
  show StableHlo.after hostOps1 (W2 m ρ c) (Proc.devRef .tc main_v25) = _
  after_results
  rw [arg_kept m ρ c main_arg6 (by decide) (ops0_not_mem main_arg6 (by decide))]
  rfl
theorem w3_value (c : Dev nD) : (V3 m ρ c main_v26 : Spec.Mat 512 256) = m ((c.tc : Thread nD τ).loc main_arg8) := by
  show StableHlo.after hostOps1 (W2 m ρ c) (Proc.devRef .tc main_v26) = _
  after_results
  rw [arg_kept m ρ c main_arg8 (by decide) (ops0_not_mem main_arg8 (by decide))]
  rfl

/-- Each bias laid out as one row reads the bias. -/
theorem b1_value (c : Dev nD) (j : Fin 1024) :
    (V3 m ρ c main_v27 : Spec.Mat 1 1024) (ix2 0 j) = (m ((c.tc : Thread nD τ).loc main_arg5) : Spec.Vc 1024) (ix1 j) := by
  have e : @Eq (Spec.Mat 1 1024) (V3 m ρ c main_v27)
      (shapeCast S1x1024 (m ((c.tc : Thread nD τ).loc main_arg5) : Spec.Vc 1024) shapeCasts_S1024_S1x1024) := by
    show StableHlo.after hostOps1 (W2 m ρ c) (Proc.devRef .tc main_v27) = _
    after_results
    rw [arg_kept m ρ c main_arg5 (by decide) (ops0_not_mem main_arg5 (by decide))]
    rfl
  rw [e]
  exact shapeCast_n_1n_apply _ _ 0 j
theorem b2_value (c : Dev nD) (j : Fin 512) :
    (V3 m ρ c main_v28 : Spec.Mat 1 512) (ix2 0 j) = (m ((c.tc : Thread nD τ).loc main_arg7) : Spec.Vc 512) (ix1 j) := by
  have e : @Eq (Spec.Mat 1 512) (V3 m ρ c main_v28)
      (shapeCast S1x512 (m ((c.tc : Thread nD τ).loc main_arg7) : Spec.Vc 512) shapeCasts_S512_S1x512) := by
    show StableHlo.after hostOps1 (W2 m ρ c) (Proc.devRef .tc main_v28) = _
    after_results
    rw [arg_kept m ρ c main_arg7 (by decide) (ops0_not_mem main_arg7 (by decide))]
    rfl
  rw [e]
  exact shapeCast_n_1n_apply _ _ 0 j
theorem b3_value (c : Dev nD) (j : Fin 256) :
    (V3 m ρ c main_v29 : Spec.Mat 1 256) (ix2 0 j) = (m ((c.tc : Thread nD τ).loc main_arg9) : Spec.Vc 256) (ix1 j) := by
  have e : @Eq (Spec.Mat 1 256) (V3 m ρ c main_v29)
      (shapeCast S1x256 (m ((c.tc : Thread nD τ).loc main_arg9) : Spec.Vc 256) shapeCasts_S256_S1x256) := by
    show StableHlo.after hostOps1 (W2 m ρ c) (Proc.devRef .tc main_v29) = _
    after_results
    rw [arg_kept m ρ c main_arg9 (by decide) (ops0_not_mem main_arg9 (by decide))]
    rfl
  rw [e]
  exact shapeCast_n_1n_apply _ _ 0 j

end Cert.KernelIdeal.KHost

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KRegion1.lean ====
/-
  What the second region leaves in the result array. Grid point t takes rows 512 t .. 512 t + 511 of the batch, multiplies
  them by the scale row, adds the shift row, and sends them through the three layers with the whole weight matrices and
  bias rows; it writes rows 512 t .. 512 t + 511 of the result. Every row of the result depends only on the same row of
  the batch, so the eight blocks are the restrictions of one whole-array function, and they cover the array.
-/
import proofs.«112534_j3607772528806_1_alg».proof.Proof.Gen.KernelIdeal.Frame
import proofs.«112534_j3607772528806_1_alg».proof.Proof.Spec
import proofs.«112534_j3607772528806_1_alg».proof.Proof.LibPlainDot
import Idealize.ShloMosaic.Lib.ValueLayout
import Idealize.ShloMosaic.Lib.Pipeline.Value

noncomputable section

namespace Cert.KernelIdeal.KRegion1

open Cert.KernelIdeal Cert.KernelIdeal.Gen
open Idealize.ShloMosaic Idealize.ShloMosaic.ValueIdx Idealize.ShloMosaic.TcCoe Idealize.SL.Sem

/-! ## The three products' index maps

Each product contracts the left operand's axis 1 against the right operand's axis 0; the result's row comes from the
left operand's axis 0 and its column from the right operand's axis 1. -/

theorem lhs_d1_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem lhs_d1_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_d1_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_d1_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

theorem lhs_d2_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem lhs_d2_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_d2_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_d2_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

theorem lhs_d3_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl
theorem lhs_d3_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_d3_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_d3_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-! ## One layer at an index -/

/-- A product into the zero accumulator plus a bias row spread over the rows, read at (p, j): the row of the left
    operand against the column of the weights, plus the bias at j. -/
theorem layer_apply {M K N : Nat} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (a : FVec Ideal ⟨2, ![M, K]⟩ .bf16) (W : FVec Ideal ⟨2, ![K, N]⟩ .bf16) (b : FVec Ideal ⟨2, ![1, N]⟩ .f32)
    (hW : (⟨2, ![K, N]⟩ : Shape).ShapeCasts ⟨2, ![K, N]⟩) (hb : (⟨2, ![1, N]⟩ : Shape).ShapeCasts ⟨2, ![1, N]⟩)
    (hbb : (⟨2, ![1, N]⟩ : Shape).Broadcasts ⟨2, ![M, N]⟩) (p : Fin M) (j : Fin N) :
    addf (matmul d none a (shapeCast ⟨2, ![K, N]⟩ W hW) (constant ⟨2, ![M, N]⟩ .f32 0x00000000#32))
        (broadcastTo ⟨2, ![M, N]⟩ (shapeCast ⟨2, ![1, N]⟩ b hb) hbb) (ix2 p j)
      = (∑ k : Fin K, a (ix2 p k) * W (ix2 k j)) + b (ix2 0 j) := by
  rw [addf_apply, shapeCast_self, shapeCast_self, broadcastTo_1b_ab_apply]
  exact congrArg (· + b (ix2 0 j)) (Cert.Lib.matmul_plain_apply d hr hs hl0 hl1 hr0 hr1 none a W p j)

/-- The rectifier against the spread zero word, then the narrowing (the identity on the extended reals). -/
theorem rect_apply {S : Shape} (v : FVec Ideal S .f32) (h : FTy.bits .bf16 < FTy.bits .f32) (i : S.Idx) :
    (truncf .bf16 (maximumf v (broadcast S (Scalar.ofBits .f32 0x00000000#32))) h : FVec Ideal S .bf16) i = max (v i) 0 := by
  rw [truncf_apply, maximumf_apply, broadcast_apply]
  exact congrArg (max (v i)) Ideal.ofBits_zero_f32

/-! ## The body's arithmetic at an index -/

/-- What the body stores at (p, j) of its block: row p of the batch block, scaled and shifted column by column, through
    the three layers. -/
theorem pay_apply (x0 : Vec Ideal S512x512 .f32) (sc sh : Vec Ideal S1x512 .f32) (w1 : Vec Ideal S512x1024 .bf16)
    (b1 : Vec Ideal S1x1024 .f32) (w2 : Vec Ideal S1024x512 .bf16) (b2 : Vec Ideal S1x512 .f32)
    (w3 : Vec Ideal S512x256 .bf16) (b3 : Vec Ideal S1x256 .f32) (p : Fin 512) (j : Fin 256) :
    k1_pay1 (k1_pay2 x0 sc sh w1 b1 w2 b2 w3) (k1_pay3 b3) (ix2 p j)
      = Spec.lin (Spec.relu (Spec.lin (Spec.relu (Spec.lin
            (fun i => x0 i * sc (ix2 0 (i 1)) + sh (ix2 0 (i 1))) w1 (fun k => b1 (ix2 0 (k 0)))))
          w2 (fun k => b2 (ix2 0 (k 0))))) w3 (fun k => b3 (ix2 0 (k 0))) (ix2 p j) := by
  unfold k1_pay1 k1_pay2 k1_pay3
  refine (layer_apply dot_S512x512_S512x256_S512x256_1_0_0_1_n_n rfl rfl lhs_d3_0 lhs_d3_1 rhs_d3_0 rhs_d3_1
    _ w3 b3 _ _ _ p j).trans ?_
  refine congrArg (· + b3 (ix2 0 j)) (Finset.sum_congr rfl fun k2 _ => congrArg (· * w3 (ix2 k2 j)) ?_)
  refine (rect_apply _ _ (ix2 p k2)).trans ?_
  refine congrArg (max · 0) ?_
  refine (layer_apply dot_S512x1024_S1024x512_S512x512_1_0_0_1_n_n rfl rfl lhs_d2_0 lhs_d2_1 rhs_d2_0 rhs_d2_1
    _ w2 b2 _ _ _ p k2).trans ?_
  refine congrArg (· + b2 (ix2 0 k2)) (Finset.sum_congr rfl fun k1 _ => congrArg (· * w2 (ix2 k1 k2)) ?_)
  refine (rect_apply _ _ (ix2 p k1)).trans ?_
  refine congrArg (max · 0) ?_
  refine (layer_apply dot_S512x512_S512x1024_S512x1024_1_0_0_1_n_n rfl rfl lhs_d1_0 lhs_d1_1 rhs_d1_0 rhs_d1_1
    _ w1 b1 _ _ _ p k1).trans ?_
  refine congrArg (· + b1 (ix2 0 k1)) (Finset.sum_congr rfl fun k0 _ => congrArg (· * w1 (ix2 k0 k1)) ?_)
  rw [truncf_apply, addf_apply, mulf_apply, shapeCast_self, shapeCast_self, shapeCast_self,
    broadcastTo_1b_ab_apply, broadcastTo_1b_ab_apply]

/-! ## Rows: the three layers read one row of the batch -/

/-- The three layers at (p, j) of a block are the three layers at (r, j) of the whole batch when row p of the block is
    row r of the batch: a layer reads only the row it writes. -/
theorem mlp_row (xb : Spec.Mat 512 512) (xa : Spec.Mat 4096 512) (W1 : Spec.Mat 512 1024) (b1 : Spec.Vc 1024)
    (W2 : Spec.Mat 1024 512) (b2 : Spec.Vc 512) (W3 : Spec.Mat 512 256) (b3 : Spec.Vc 256)
    (p : Fin 512) (r : Fin 4096) (j : Fin 256) (hrow : ∀ d : Fin 512, xb (ix2 p d) = xa (ix2 r d)) :
    Spec.lin (Spec.relu (Spec.lin (Spec.relu (Spec.lin xb W1 b1)) W2 b2)) W3 b3 (ix2 p j)
      = Spec.mlp xa W1 b1 W2 b2 W3 b3 (ix2 r j) := by
  show (∑ k2 : Fin 512, max ((∑ k1 : Fin 1024, max ((∑ k0 : Fin 512, xb (ix2 p k0) * W1 (ix2 k0 k1)) + b1 (ix1 k1)) 0
        * W2 (ix2 k1 k2)) + b2 (ix1 k2)) 0 * W3 (ix2 k2 j)) + b3 (ix1 j)
    = (∑ k2 : Fin 512, max ((∑ k1 : Fin 1024, max ((∑ k0 : Fin 512, xa (ix2 r k0) * W1 (ix2 k0 k1)) + b1 (ix1 k1)) 0
        * W2 (ix2 k1 k2)) + b2 (ix1 k2)) 0 * W3 (ix2 k2 j)) + b3 (ix1 j)
  simp only [hrow]

/-- The same with the block's eight other operands named apart from the arrays they are read off. -/
theorem mlp_block (x0 : Spec.Mat 512 512) (sc sh : Spec.Mat 1 512) (w1 : Spec.Mat 512 1024) (b1 : Spec.Mat 1 1024)
    (w2 : Spec.Mat 1024 512) (b2 : Spec.Mat 1 512) (w3 : Spec.Mat 512 256) (b3 : Spec.Mat 1 256)
    (xa : Spec.Mat 4096 512) (sca sha : Spec.Mat 1 512) (w1a : Spec.Mat 512 1024) (b1a : Spec.Mat 1 1024)
    (w2a : Spec.Mat 1024 512) (b2a : Spec.Mat 1 512) (w3a : Spec.Mat 512 256) (b3a : Spec.Mat 1 256)
    (p : Fin 512) (r : Fin 4096) (j : Fin 256)
    (hx : ∀ d : Fin 512, x0 (ix2 p d) = xa (ix2 r d)) (hsc : sc = sca) (hsh : sh = sha) (hw1 : w1 = w1a) (hb1 : b1 = b1a)
    (hw2 : w2 = w2a) (hb2 : b2 = b2a) (hw3 : w3 = w3a) (hb3 : b3 = b3a) :
    Spec.lin (Spec.relu (Spec.lin (Spec.relu (Spec.lin
          (fun i => x0 i * sc (ix2 0 (i 1)) + sh (ix2 0 (i 1))) w1 (fun k => b1 (ix2 0 (k 0)))))
        w2 (fun k => b2 (ix2 0 (k 0))))) w3 (fun k => b3 (ix2 0 (k 0))) (ix2 p j)
      = Spec.mlp (fun i => xa i * sca (ix2 0 (i 1)) + sha (ix2 0 (i 1))) w1a (fun k => b1a (ix2 0 (k 0)))
          w2a (fun k => b2a (ix2 0 (k 0))) w3a (fun k => b3a (ix2 0 (k 0))) (ix2 r j) := by
  subst hsc hsh hw1 hb1 hw2 hb2 hw3 hb3
  refine mlp_row _ _ _ _ _ _ _ _ p r j fun d => ?_
  show x0 (ix2 p d) * sc (ix2 0 d) + sh (ix2 0 d) = xa (ix2 r d) * sc (ix2 0 d) + sh (ix2 0 d)
  rw [hx d]

variable (m : (ℓ : Loc nD τ sig) → Buf (Elt Ideal) ℓ) (ρ : Dev nD → PrngReg)

/-- The arrays the second region finds, each at its literal type. -/
abbrev xA (c : Dev nD) : Spec.Mat 4096 512 := V3 m ρ c main_v8
abbrev scA (c : Dev nD) : Spec.Mat 1 512 := V3 m ρ c main_v20
abbrev shA (c : Dev nD) : Spec.Mat 1 512 := V3 m ρ c main_v23
abbrev w1A (c : Dev nD) : Spec.Mat 512 1024 := V3 m ρ c main_v24
abbrev b1A (c : Dev nD) : Spec.Mat 1 1024 := V3 m ρ c main_v27
abbrev w2A (c : Dev nD) : Spec.Mat 1024 512 := V3 m ρ c main_v25
abbrev b2A (c : Dev nD) : Spec.Mat 1 512 := V3 m ρ c main_v28
abbrev w3A (c : Dev nD) : Spec.Mat 512 256 := V3 m ρ c main_v26
abbrev b3A (c : Dev nD) : Spec.Mat 1 256 := V3 m ρ c main_v29
/-- The result array after the run. -/
abbrev outA (c : Dev nD) : Spec.Mat 4096 256 := V4 m ρ c main_v30

/-! ## From blocks to the array -/

/-- The result as one function of the nine arrays: every row of the batch scaled, shifted and sent through the layers. -/
abbrev wholeOut (c : Dev nD) : Spec.Mat 4096 256 :=
  Spec.mlp
    (fun i => xA m ρ c i * scA m ρ c (ix2 0 (i 1)) + shA m ρ c (ix2 0 (i 1)))
    (w1A m ρ c) (fun k => b1A m ρ c (ix2 0 (k 0)))
    (w2A m ρ c) (fun k => b2A m ρ c (ix2 0 (k 0)))
    (w3A m ρ c) (fun k => b3A m ρ c (ix2 0 (k 0)))

theorem zero_off : (![0, 0] : Fin 2 → Nat) = fun _ => 0 := funext fun a => by fin_cases a <;> rfl

/-- The block index of every window at every point: the batch and the result move down one block of rows per point,
    the eight other operands stay at their one block. -/
theorem blk_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Row p of the batch block at point t is row 512 t + p of the batch. -/
theorem blk_x (c : Dev nD) (t : Fin cfg1.N) (p : Fin 512) (d : Fin 512) (r : Fin 4096) (hr : r.val = 512 * t.val + p.val) :
    (iblk1 (V3 m ρ) c 0 t : Vec Ideal S512x512 .f32) (ix2 p d) = xA m ρ c (ix2 r d) := by
  obtain ⟨e0, e1, -⟩ := blk_index t
  unfold iblk1
  rw [View.read_apply]
  show V3 m ρ c main_v8 _ = V3 m ρ c main_v8 _
  congr 1
  funext a
  apply Fin.ext
  match a with
  | ⟨0, _⟩ => show win1_0.index t (0 : Fin 2) * 512 + 1 * p.val = r.val; rw [e0, hr]; omega
  | ⟨1, _⟩ => show win1_0.index t (1 : Fin 2) * 512 + 1 * d.val = d.val; rw [e1]; omega

/-- The scale row's one block is the whole row. -/
theorem blk_sc (c : Dev nD) (t : Fin cfg1.N) : (iblk1 (V3 m ρ) c 1 t : Vec Ideal S1x512 .f32) = scA m ρ c := by
  obtain ⟨-, -, e0, e1, -⟩ := blk_index t
  unfold iblk1
  funext y
  rw [View.read_apply]
  show V3 m ρ c main_v20 _ = V3 m ρ c main_v20 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 512 + 1 * (y 1).val = (y 1).val; rw [e1]; omega

/-- The shift row's one block is the whole row. -/
theorem blk_sh (c : Dev nD) (t : Fin cfg1.N) : (iblk1 (V3 m ρ) c 2 t : Vec Ideal S1x512 .f32) = shA m ρ c := by
  obtain ⟨-, -, -, -, e0, e1, -⟩ := blk_index t
  unfold iblk1
  funext y
  rw [View.read_apply]
  show V3 m ρ c main_v23 _ = V3 m ρ c main_v23 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega

/-- The first weights' one block is the whole matrix. -/
theorem blk_w1 (c : Dev nD) (t : Fin cfg1.N) : (iblk1 (V3 m ρ) c 3 t : Vec Ideal S512x1024 .bf16) = w1A m ρ c := by
  obtain ⟨-, -, -, -, -, -, e0, e1, -⟩ := blk_index t
  unfold iblk1
  funext y
  rw [View.read_apply]
  show V3 m ρ c main_v24 _ = V3 m ρ c main_v24 y
  congr 1
  funext a
  apply Fin.ext
  match a with
  | ⟨0, _⟩ => show win1_3.index t (0 : Fin 2) * 512 + 1 * (y 0).val = (y 0).val; rw [e0]; omega
  | ⟨1, _⟩ => show win1_3.index t (1 : Fin 2) * 1024 + 1 * (y 1).val = (y 1).val; rw [e1]; omega

/-- The first bias row's one block is the whole row. -/
theorem blk_b1 (c : Dev nD) (t : Fin cfg1.N) : (iblk1 (V3 m ρ) c 4 t : Vec Ideal S1x1024 .f32) = b1A m ρ c := by
  obtain ⟨-, -, -, -, -, -, -, -, e0, e1, -⟩ := blk_index t
  unfold iblk1
  funext y
  rw [View.read_apply]
  show V3 m ρ c main_v27 _ = V3 m ρ c main_v27 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 1024 + 1 * (y 1).val = (y 1).val; rw [e1]; omega

/-- The second weights' one block is the whole matrix. -/
theorem blk_w2 (c : Dev nD) (t : Fin cfg1.N) : (iblk1 (V3 m ρ) c 5 t : Vec Ideal S1024x512 .bf16) = w2A m ρ c := by
  obtain ⟨-, -, -, -, -, -, -, -, -, -, e0, e1, -⟩ := blk_index t
  unfold iblk1
  funext y
  rw [View.read_apply]
  show V3 m ρ c main_v25 _ = V3 m ρ c main_v25 y
  congr 1
  funext a
  apply Fin.ext
  match a with
  | ⟨0, _⟩ => show win1_5.index t (0 : Fin 2) * 1024 + 1 * (y 0).val = (y 0).val; rw [e0]; omega
  | ⟨1, _⟩ => show win1_5.index t (1 : Fin 2) * 512 + 1 * (y 1).val = (y 1).val; rw [e1]; omega

/-- The second bias row's one block is the whole row. -/
theorem blk_b2 (c : Dev nD) (t : Fin cfg1.N) : (iblk1 (V3 m ρ) c 6 t : Vec Ideal S1x512 .f32) = b2A m ρ c := by
  obtain ⟨-, -, -, -, -, -, -, -, -, -, -, -, e0, e1, -⟩ := blk_index t
  unfold iblk1
  funext y
  rw [View.read_apply]
  show V3 m ρ c main_v28 _ = V3 m ρ c main_v28 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 512 + 1 * (y 1).val = (y 1).val; rw [e1]; omega

/-- The third weights' one block is the whole matrix. -/
theorem blk_w3 (c : Dev nD) (t : Fin cfg1.N) : (iblk1 (V3 m ρ) c 7 t : Vec Ideal S512x256 .bf16) = w3A m ρ c := by
  obtain ⟨-, -, -, -, -, -, -, -, -, -, -, -, -, -, e0, e1, -⟩ := blk_index t
  unfold iblk1
  funext y
  rw [View.read_apply]
  show V3 m ρ c main_v26 _ = V3 m ρ c main_v26 y
  congr 1
  funext a
  apply Fin.ext
  match a with
  | ⟨0, _⟩ => show win1_7.index t (0 : Fin 2) * 512 + 1 * (y 0).val = (y 0).val; rw [e0]; omega
  | ⟨1, _⟩ => show win1_7.index t (1 : Fin 2) * 256 + 1 * (y 1).val = (y 1).val; rw [e1]; omega

/-- The third bias row's one block is the whole row. -/
theorem blk_b3 (c : Dev nD) (t : Fin cfg1.N) : (iblk1 (V3 m ρ) c 8 t : Vec Ideal S1x256 .f32) = b3A m ρ c := by
  obtain ⟨-, -, -, -, -, -, -, -, -, -, -, -, -, -, -, -, e0, e1, -⟩ := blk_index t
  unfold iblk1
  funext y
  rw [View.read_apply]
  show V3 m ρ c main_v29 _ = V3 m ρ c main_v29 y
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 256 + 1 * (y 1).val = (y 1).val; rw [e1]; omega

/-- What point t writes back is block t of the whole-array result. -/
theorem flushed_eq (c : Dev nD) (t : Fin cfg1.N) :
    (dat1 (V3 m ρ) c).flushed 9 t = ((cfg1.win 9).blk t).view.read (Elt Ideal) (wholeOut m ρ c) := by
  show (cfg1.win 9).cut (grid1.coords t) ((dat1 (V3 m ρ) c).after 9 t) = _
  rw [after1_9]
  unfold out1_9
  rw [View.canon_unit_zero zero_off]
  simp only [View.ld_unit_zero (S := S512x512) zero_off, View.ld_unit_zero (S := S1x512) zero_off,
    View.ld_unit_zero (S := S512x1024) zero_off, View.ld_unit_zero (S := S1x1024) zero_off,
    View.ld_unit_zero (S := S1024x512) zero_off, View.ld_unit_zero (S := S512x256) zero_off,
    View.ld_unit_zero (S := S1x256) zero_off]
  funext y
  obtain ⟨p, j, rfl⟩ : ∃ (p : Fin 512) (j : Fin 256), y = ix2 p j := ⟨y 0, y 1, eq_ix2 y⟩
  have ht : t.val < 8 := lt_of_lt_of_eq t.isLt N_1
  obtain ⟨-, -, -, -, -, -, -, -, -, -, -, -, -, -, -, -, -, -, e0, e1⟩ := blk_index t
  rw [View.read_apply]
  have hemb : ((cfg1.win 9).blk t).view.emb (ix2 p j) = ix2 (⟨512 * t.val + p.val, by omega⟩ : Fin 4096) j := by
    funext a
    apply Fin.ext
    match a with
    | ⟨0, _⟩ => show win1_9.index t (0 : Fin 2) * 512 + 1 * p.val = 512 * t.val + p.val; rw [e0]; omega
    | ⟨1, _⟩ => show win1_9.index t (1 : Fin 2) * 256 + 1 * j.val = j.val; rw [e1]; omega
  rw [hemb]
  refine (pay_apply _ _ _ _ _ _ _ _ _ p j).trans ?_
  exact mlp_block _ _ _ _ _ _ _ _ _ _ _ _ _ _ _ _ _ _ p ⟨512 * t.val + p.val, by omega⟩ j
    (fun d => blk_x m ρ c t p d _ rfl) (blk_sc m ρ c t) (blk_sh m ρ c t) (blk_w1 m ρ c t) (blk_b1 m ρ c t)
    (blk_w2 m ρ c t) (blk_b2 m ρ c t) (blk_w3 m ρ c t) (blk_b3 m ρ c t)

/-- An index of the result is in point t's block iff each coordinate is in the block's range on its axis. -/
theorem mem_blk (t : Fin cfg1.N) (i : S4096x256.Idx) :
    i ∈ ((cfg1.win 9).blk t).view.set ↔ ∀ a : Fin 2, win1_9.index t a * S512x256.size a ≤ (i a).val
      ∧ (i a).val < win1_9.index t a * S512x256.size a + S512x256.size a := by
  show i ∈ ((View.whole main_v30).slice (win1_9.rect t)).set ↔ _
  rw [View.set_slice_whole, Rect.mem_set_unit]
  exact Iff.rfl

/-- Row r of the result is in the block of point r / 512, which writes it back. -/
theorem covered (i : S4096x256.Idx) :
    ∃ t : Fin cfg1.N, (cfg1.win 9).flush t = true ∧ i ∈ ((cfg1.win 9).blk t).view.set := by
  have hi0 : (i 0).val < 4096 := (i 0).isLt
  have hi1 : (i 1).val < 256 := (i 1).isLt
  obtain ⟨t, ht⟩ : ∃ t : Fin cfg1.N, t.val = (i 0).val / 512 :=
    ⟨⟨(i 0).val / 512, lt_of_lt_of_eq (by omega) N_1.symm⟩, rfl⟩
  obtain ⟨-, -, -, -, -, -, -, -, -, -, -, -, -, -, -, -, -, -, e0, e1⟩ := blk_index t
  refine ⟨t, flush1_9 t, ?_⟩
  rw [mem_blk]
  intro a
  match a with
  | ⟨0, _⟩ =>
    show win1_9.index t (0 : Fin 2) * 512 ≤ (i 0).val ∧ (i 0).val < win1_9.index t (0 : Fin 2) * 512 + 512
    rw [e0, ht]; omega
  | ⟨1, _⟩ =>
    show win1_9.index t (1 : Fin 2) * 256 ≤ (i 1).val ∧ (i 1).val < win1_9.index t (1 : Fin 2) * 256 + 256
    rw [e1]; omega

/-- The result array after the eight points: the whole-array result. -/
theorem final (c : Dev nD) : (dat1 (V3 m ρ) c).arrAt 9 cfg1.N = wholeOut m ρ c :=
  (dat1 (V3 m ρ) c).arrAt_eq_of_cover 9 (wholeOut m ρ c) (fun t _ => flushed_eq m ρ c t) covered

/-- The result array after the run, from the arrays the second region finds. -/
theorem out_value (c : Dev nD) (r : Fin 4096) (j : Fin 256) :
    outA m ρ c (ix2 r j)
      = Spec.mlp
          (fun i => xA m ρ c i * scA m ρ c (ix2 0 (i 1)) + shA m ρ c (ix2 0 (i 1)))
          (w1A m ρ c) (fun k => b1A m ρ c (ix2 0 (k 0)))
          (w2A m ρ c) (fun k => b2A m ρ c (ix2 0 (k 0)))
          (w3A m ρ c) (fun k => b3A m ρ c (ix2 0 (k 0))) (ix2 r j) := by
  have h : outA m ρ c = wholeOut m ρ c := (hF1 m ρ c 9).symm.trans (final m ρ c)
  exact congrFun h (ix2 r j)

end Cert.KernelIdeal.KRegion1

end
-- ==== Proof.Finite.lean ====
/-
  Finiteness. The precondition says every entry of every float argument is smaller in absolute value than +infinity, so
  every entry of the table, of gamma and of beta is a real number. Every entry of the batch is then a real number too:
  an entry of the gathered rows is an entry of the table, a host sum from the zero word of finitely many reals is a real,
  and a reshape only re-indexes.
-/
import proofs.«112534_j3607772528806_1_alg».proof.Defs
import proofs.«112534_j3607772528806_1_alg».proof.Proof.Gen.KernelIdeal
import proofs.«112534_j3607772528806_1_alg».proof.Proof.Gen.Pre_finite_inputs
import proofs.«112534_j3607772528806_1_alg».proof.Proof.Spec
import proofs.«112534_j3607772528806_1_alg».proof.Proof.KFront
import Idealize.ShloMosaic.Lib.ReduceAll
import Idealize.ShloMosaic.Lib.IdealHost

noncomputable section

namespace Cert.KernelIdeal.Finite

open Cert.KernelIdeal
open Idealize.ShloMosaic Idealize.ShloMosaic.ValueIdx Idealize.ShloMosaic.TcCoe Idealize.SL.Sem

/-- A rank-0 array has one index. -/
instance subsingleton_scalar_idx : Subsingleton (⟨0, ![]⟩ : Shape).Idx := ⟨fun a b => funext fun d => d.elim0⟩

/-- The word 0x7F800000 is +infinity. -/
theorem ofBits_inf : Ideal.ofBits .f32 0x7F800000#32 = (⊤ : EReal) := by simp [Ideal.ofBits, Ideal.ieee]

/-- An extended real whose absolute value max x (-x) is below +infinity is a real. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The all-conjunct of an array: if the and-reduction over every axis of the entrywise test |x| < +infinity is 1,
    every entry of x is a real. -/
theorem real_of_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
        (cmpf .olt (Host.absf x) (broadcastInDim s ![] hb (constant (⟨0, ![]⟩ : Shape) .f32 0x7F800000#32)))
        (constantI (⟨0, ![]⟩ : Shape) 1 1#1) hr hu ix0 = 1#1)
    (i : s.Idx) : ∃ r : ℝ, (x i : EReal) = (r : EReal) :=
  real_of_abs_lt_top (x i) (Host.reduce_andi_all _ _ hr hu ix0 e i)

variable (m : (ℓ : Loc nD τ sig) → Buf (Elt Ideal) ℓ)

/-- The precondition at a device gives the table's, gamma's and beta's entries as reals: the precondition is a
    conjunction of nine all-conjuncts, of which these are the first three. -/
theorem args_real (h : Cert.Pre_KernelIdeal m) (c : Dev nD) :
    (∀ i, ∃ r : ℝ, (m ((c.tc : Thread nD τ).loc main_arg1) : S1000000x16.Idx → EReal) i = (r : EReal))
    ∧ (∀ i, ∃ r : ℝ, (m ((c.tc : Thread nD τ).loc main_arg2) : Spec.Vc 512) i = (r : EReal))
    ∧ (∀ i, ∃ r : ℝ, (m ((c.tc : Thread nD τ).loc main_arg3) : Spec.Vc 512) i = (r : EReal)) := by
  have h0 := congrFun (h c) ix0
  dsimp only [Cert.Pre_finite_inputs.fn, Cert.Pre_finite_inputs.fn_part1, Cert.Pre_finite_inputs.fn_part2,
    Idealize.ShloMosaic.andi] at h0
  simp only [IntOp.andi_eq_one] at h0
  exact ⟨real_of_all _ _ _ _ h0.1.1.1.1.1.1.1.1, real_of_all _ _ _ _ h0.1.1.1.1.1.1.1.2,
    real_of_all _ _ _ _ h0.1.1.1.1.1.1.2⟩

/-- Under the precondition every entry of the table is a real number. -/
theorem table_real (h : Cert.Pre_KernelIdeal m) (c : Dev nD) (i : S1000000x16.Idx) :
    ∃ r : ℝ, (m ((c.tc : Thread nD τ).loc main_arg1) : S1000000x16.Idx → EReal) i = (r : EReal) :=
  (args_real m h c).1 i

/-- Under the precondition every entry of gamma is a real number. -/
theorem gamma_real (h : Cert.Pre_KernelIdeal m) (c : Dev nD) (i : (⟨1, ![512]⟩ : Shape).Idx) :
    ∃ r : ℝ, (m ((c.tc : Thread nD τ).loc main_arg2) : Spec.Vc 512) i = (r : EReal) :=
  (args_real m h c).2.1 i

/-- Under the precondition every entry of beta is a real number. -/
theorem beta_real (h : Cert.Pre_KernelIdeal m) (c : Dev nD) (i : (⟨1, ![512]⟩ : Shape).Idx) :
    ∃ r : ℝ, (m ((c.tc : Thread nD τ).loc main_arg3) : Spec.Vc 512) i = (r : EReal) :=
  (args_real m h c).2.2 i

/-- A finite sum of reals is a real. -/
theorem sum_real {ι : Type} (S : Finset ι) (f : ι → EReal) (hf : ∀ i, ∃ r : ℝ, f i = (r : EReal)) :
    ∃ r : ℝ, ∑ i ∈ S, f i = (r : EReal) := by
  classical
  induction S using Finset.induction_on with
  | empty => exact ⟨0, by simp⟩
  | insert a S ha ih =>
    obtain ⟨r, hr⟩ := ih
    obtain ⟨q, hq⟩ := hf a
    exact ⟨q + r, by rw [Finset.sum_insert ha, hr, hq, EReal.coe_add]⟩

/-- A host sum of reals from a real initial value is a real at every index: it is the initial value plus the sum of
    the operand's entries that reduce to the index. -/
theorem hostReduceAdd_real {s t u : Shape} {axes : List (Fin s.rank)} (x : FVec Ideal s .f32)
    (init : u.Idx → Ideal .f32) (h : s.ReducesTo axes t) (hu : 0 < u.numel)
    (hx : ∀ i, ∃ r : ℝ, (x i : EReal) = (r : EReal)) (hi : ∃ r : ℝ, (init (Shape.Idx.first hu) : EReal) = (r : EReal))
    (j : t.Idx) : ∃ r : ℝ, (Host.reduceAdd x init h hu j : EReal) = (r : EReal) := by
  rw [hostReduceAdd_apply]
  unfold Ideal.hostReduceAdd
  obtain ⟨a, ha⟩ := hi
  obtain ⟨b, hb⟩ := sum_real (Finset.univ.filter fun i => h.drop i = j) x hx
  exact ⟨a + b, by rw [ha, hb, EReal.coe_add]⟩

/-- On a table of reals every entry of the batch is a real number, whatever the indices. -/
theorem xFront_real (a0 : (⟨S4096x32x20, .i32⟩ : BufTy).Contents (Elt Ideal)) (a1 : S1000000x16.Idx → EReal)
    (h1 : ∀ i, ∃ r : ℝ, a1 i = (r : EReal)) (i : (⟨2, ![4096, 512]⟩ : Shape).Idx) :
    ∃ r : ℝ, (KFront.xFront (F := Ideal) a0 a1 : Spec.Mat 4096 512) i = (r : EReal) := by
  unfold KFront.xFront shapeCast
  refine hostReduceAdd_real _ _ _ _ (fun j => ?_) ⟨0, ?_⟩ _
  · -- an entry of the gathered rows is an entry of the table
    unfold KFront.rowsOf Host.gather
    exact h1 _
  · -- the zero word is zero
    show Ideal.ofBits .f32 0x00000000#32 = ((0 : ℝ) : EReal)
    rw [Ideal.ofBits_zero_f32, EReal.coe_zero]

end Cert.KernelIdeal.Finite

end
-- ==== Proof.KValue.lean ====
/-
  The kernel program's result as one function of its arguments.
  Region by region: the batch the first region finds is the gather-and-sum term of the index array and the table; the
  first region leaves its column sums and sums of squares; the host forms scale and shift rows from them; the second region
  leaves, row by row, the three layers of (batch * scale + shift). That is the scale-and-shift normal form of the batch
  under the layers, and on finite inputs the scale-and-shift normal form is the centre-then-scale one.
-/
import proofs.«112534_j3607772528806_1_alg».proof.Proof.SpecLaw
import proofs.«112534_j3607772528806_1_alg».proof.Proof.KRegion0
import proofs.«112534_j3607772528806_1_alg».proof.Proof.KHost
import proofs.«112534_j3607772528806_1_alg».proof.Proof.KRegion1
import proofs.«112534_j3607772528806_1_alg».proof.Proof.Finite

noncomputable section

namespace Cert.KernelIdeal.KValue

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg)

/-- The arguments, each at its literal type. -/
abbrev idxA (c : Dev nD) : (⟨S4096x32x20, .i32⟩ : BufTy).Contents (Elt Ideal) := m ((c.tc : Thread nD τ).loc main_arg0)
abbrev tblA (c : Dev nD) : S1000000x16.Idx → EReal := m ((c.tc : Thread nD τ).loc main_arg1)
abbrev gA (c : Dev nD) : Spec.Vc 512 := m ((c.tc : Thread nD τ).loc main_arg2)
abbrev bA (c : Dev nD) : Spec.Vc 512 := m ((c.tc : Thread nD τ).loc main_arg3)
abbrev w1 (c : Dev nD) : Spec.Mat 512 1024 := m ((c.tc : Thread nD τ).loc main_arg4)
abbrev b1 (c : Dev nD) : Spec.Vc 1024 := m ((c.tc : Thread nD τ).loc main_arg5)
abbrev w2 (c : Dev nD) : Spec.Mat 1024 512 := m ((c.tc : Thread nD τ).loc main_arg6)
abbrev b2 (c : Dev nD) : Spec.Vc 512 := m ((c.tc : Thread nD τ).loc main_arg7)
abbrev w3 (c : Dev nD) : Spec.Mat 512 256 := m ((c.tc : Thread nD τ).loc main_arg8)
abbrev b3 (c : Dev nD) : Spec.Vc 256 := m ((c.tc : Thread nD τ).loc main_arg9)
/-- The batch. -/
abbrev xB (c : Dev nD) : Spec.Mat 4096 512 := KFront.xFront (F := Ideal) (idxA m c) (tblA m c)

/-- The result both programs compute: the three layers of the centre-then-scale normal form of the batch. -/
def result (c : Dev nD) : Spec.Mat 4096 256 :=
  Spec.mlp (Spec.xnR (xB m c) (gA m c) (bA m c)) (w1 m c) (b1 m c) (w2 m c) (b2 m c) (w3 m c) (b3 m c)

/-- The batch the second region finds is the batch. -/
theorem x_eq (c : Dev nD) : KRegion1.xA m ρ c = xB m c :=
  (KHost.x_kept m ρ c).trans ((KRegion0.x_kept m ρ c).trans (KHost.x_value m ρ c))

/-- What the second region normalises with is the scale-and-shift normal form of the batch. -/
theorem xn_value (c : Dev nD) :
    (fun i => KRegion1.xA m ρ c i * KRegion1.scA m ρ c (ix2 0 (i 1)) + KRegion1.shA m ρ c (ix2 0 (i 1)))
      = Spec.xnK (xB m c) (gA m c) (bA m c) := by
  funext i
  obtain ⟨p, q, rfl⟩ : ∃ (p : Fin 4096) (q : Fin 512), i = ix2 p q := ⟨i 0, i 1, eq_ix2 i⟩
  have hin : KRegion0.xIn m ρ c = xB m c := KHost.x_value m ρ c
  have hs : KRegion1.scA m ρ c (ix2 0 q)
      = Spec.scaleS (Spec.colSum (xB m c) q) (Spec.colSumSq (xB m c) q) (gA m c (ix1 q)) := by
    refine (KHost.scale_value m ρ c q).trans ?_
    rw [KRegion0.sum_value m ρ c q, KRegion0.sumsq_value m ρ c q, hin]
  have ht : KRegion1.shA m ρ c (ix2 0 q)
      = Spec.shiftS (Spec.colSum (xB m c) q) (Spec.colSumSq (xB m c) q) (gA m c (ix1 q)) (bA m c (ix1 q)) := by
    refine (KHost.shift_value m ρ c q).trans ?_
    rw [KRegion0.sum_value m ρ c q, KRegion0.sumsq_value m ρ c q, hin]
  show KRegion1.xA m ρ c (ix2 p q) * KRegion1.scA m ρ c (ix2 0 q) + KRegion1.shA m ρ c (ix2 0 q) = _
  rw [hs, ht, x_eq]
  rfl

/-- A bias laid out as one row, read back as a vector, is the bias. -/
theorem b1_eq (c : Dev nD) : (fun k => KRegion1.b1A m ρ c (ix2 0 (k 0))) = b1 m c :=
  funext fun k => (KHost.b1_value m ρ c (k 0)).trans (congrArg (b1 m c) (eq_ix1 k).symm)
theorem b2_eq (c : Dev nD) : (fun k => KRegion1.b2A m ρ c (ix2 0 (k 0))) = b2 m c :=
  funext fun k => (KHost.b2_value m ρ c (k 0)).trans (congrArg (b2 m c) (eq_ix1 k).symm)
theorem b3_eq (c : Dev nD) : (fun k => KRegion1.b3A m ρ c (ix2 0 (k 0))) = b3 m c :=
  funext fun k => (KHost.b3_value m ρ c (k 0)).trans (congrArg (b3 m c) (eq_ix1 k).symm)

/-- Under the precondition the result array after the run is `result`. -/
theorem value (hpre : Cert.Pre_KernelIdeal m) (c : Dev nD) :
    (W4 m ρ c (Proc.devRef .tc main_v30) : Spec.Mat 4096 256) = result m c := by
  funext i
  obtain ⟨r, j, rfl⟩ : ∃ (r : Fin 4096) (j : Fin 256), i = ix2 r j := ⟨i 0, i 1, eq_ix2 i⟩
  refine (KRegion1.out_value m ρ c r j).trans ?_
  rw [xn_value, b1_eq, b2_eq, b3_eq,
    show KRegion1.w1A m ρ c = w1 m c from KHost.w1_value m ρ c,
    show KRegion1.w2A m ρ c = w2 m c from KHost.w2_value m ρ c,
    show KRegion1.w3A m ρ c = w3 m c from KHost.w3_value m ρ c]
  unfold result
  rw [Spec.xn_eq (xB m c) (gA m c) (bA m c)
    (Finite.xFront_real (idxA m c) (tblA m c) (Finite.table_real m hpre c))
    (Finite.gamma_real m hpre c) (Finite.beta_real m hpre c)]

end Cert.KernelIdeal.KValue

end
-- ==== Proof.RTerm.lean ====
/-
  The reference's result as one term of its ten arguments, stage by stage: the batch (as on the other side), the column
  means, the column variances as the mean of squared deviations (with the divisor n minus a zero correction, kept only
  when that divisor is positive, which it is), the centred batch times the inverse deviation times gamma plus beta, and
  three linear layers with a rectifier after the first two.
-/
import proofs.«112534_j3607772528806_1_alg».proof.ReferenceIdeal

noncomputable section

namespace Cert.ReferenceIdeal.RTerm

open Cert.ReferenceIdeal Idealize.ShloMosaic
open Facts₀

variable {F : FTy → Type} [FloatOps F] [Facts]

/-- Contents of a float array of shape s. -/
abbrev C (s : Shape) : Type := (⟨s, .f32⟩ : BufTy).Contents (Elt F)

/-- A negative index counts from the table's end. -/
def wrapIdx (a0 : (⟨S4096x32x20, .i32⟩ : BufTy).Contents (Elt F)) : (⟨S4096x32x20, .i32⟩ : BufTy).Contents (Elt F) :=
  select (cmpi .slt a0 (broadcastInDim S4096x32x20 ![] bcast_S_S4096x32x20 (constantI S_ 32 0#32)))
    (addi a0 (broadcastInDim S4096x32x20 ![] bcast_S_S4096x32x20 (constantI S_ 32 1000000#32))) a0

/-- The gathered rows, one per (sample, feature, hit). -/
def rowsOf (a0 : (⟨S4096x32x20, .i32⟩ : BufTy).Contents (Elt F)) (a1 : C (F := F) S1000000x16) : C (F := F) S4096x32x20x16 :=
  Host.gather gather_S1000000x16_S4096x32x20x1_S4096x32x20x16_3_0_n_n_0_3_116 a1
    (broadcastInDim S4096x32x20x1 ![0, 1, 2] bcast_S4096x32x20_S4096x32x20x1_0_1_2 (wrapIdx a0))

/-- The batch x : [4096, 512]. -/
def xFront (a0 : (⟨S4096x32x20, .i32⟩ : BufTy).Contents (Elt F)) (a1 : C (F := F) S1000000x16) : C (F := F) S4096x512 :=
  shapeCast S4096x512
    (Host.reduceAdd (rowsOf a0 a1) (constant S_ .f32 0x00000000#32) reducesTo_S4096x32x20x16_S4096x32x16_d2 h_S_)
    shapeCasts_S4096x32x16_S4096x512

/-- The column sums. -/
def sumT (x : C (F := F) S4096x512) : C (F := F) S512 :=
  Host.reduceAdd x (constant S_ .f32 0x00000000#32) reducesTo_S4096x512_S512_d0 h_S_

/-- The column means. -/
def meanT (x : C (F := F) S4096x512) : C (F := F) S512 :=
  Host.divf (sumT x) (broadcastInDim S512 ![] bcast_S_S512 (constant S_ .f32 0x45800000#32))

/-- The batch centred by its column means, the means recomputed as a [1, 512] row and spread down the rows. -/
def centredT (x : C (F := F) S4096x512) : C (F := F) S4096x512 :=
  subf x (broadcastInDim S4096x512 ![0, 1] bcast_S1x512_S4096x512_0_1
    (Host.divf (broadcastInDim S1x512 ![1] bcast_S512_S1x512_1 (sumT x))
      (broadcastInDim S1x512 ![] bcast_S_S1x512 (constant S_ .f32 0x45800000#32))))

/-- The divisor: the row count minus the (zero) correction. -/
def divisorT : C (F := F) S_ :=
  subf (constant S_ .f32 0x45800000#32) (sitofp .f32 (constantI S_ 32 0#32))

/-- The column variances: the sum of squared deviations over the divisor where the divisor is positive, else the
    not-a-number pattern. -/
def varT (x : C (F := F) S4096x512) : C (F := F) S512 :=
  select (broadcastInDim S512 ![] bcast_S_S512 (cmpf .ogt (divisorT (F := F)) (constant S_ .f32 0x00000000#32)))
    (Host.divf (Host.reduceAdd (mulf (centredT x) (centredT x)) (constant S_ .f32 0x00000000#32) reducesTo_S4096x512_S512_d0 h_S_)
      (broadcastInDim S512 ![] bcast_S_S512 (divisorT (F := F))))
    (broadcastInDim S512 ![] bcast_S_S512 (id (constant S_ .f32 0x7FC00000#32)))

/-- A vector spread down the 4096 rows. -/
def rows512 (v : C (F := F) S512) : C (F := F) S4096x512 :=
  broadcastInDim S4096x512 ![0, 1] bcast_S1x512_S4096x512_0_1 (broadcastInDim S1x512 ![1] bcast_S512_S1x512_1 v)

/-- The normalised batch. -/
def normT (x : C (F := F) S4096x512) (g b : C (F := F) S512) : C (F := F) S4096x512 :=
  addf (mulf (mulf (subf x (rows512 (meanT x)))
      (rows512 (Host.rsqrt (addf (varT x) (broadcastInDim S512 ![] bcast_S_S512 (constant S_ .f32 0x3727C5AC#32))))))
      (rows512 g))
    (rows512 b)

/-- The first layer before its rectifier. -/
def lin1T (a : C (F := F) S4096x512) (W : C (F := F) S512x1024) (b : C (F := F) S1024) : C (F := F) S4096x1024 :=
  addf (Host.dotGeneral dot_S4096x512_S512x1024_S4096x1024_1_0_0_1_n_n none a W)
    (broadcastInDim S4096x1024 ![0, 1] bcast_S1x1024_S4096x1024_0_1 (broadcastInDim S1x1024 ![1] bcast_S1024_S1x1024_1 b))

/-- The first rectifier. -/
def relu1T (a : C (F := F) S4096x1024) : C (F := F) S4096x1024 :=
  maximumf a (broadcastInDim S4096x1024 ![] bcast_S_S4096x1024 (constant S_ .f32 0x00000000#32))

/-- The second layer before its rectifier. -/
def lin2T (a : C (F := F) S4096x1024) (W : C (F := F) S1024x512) (b : C (F := F) S512) : C (F := F) S4096x512 :=
  addf (Host.dotGeneral dot_S4096x1024_S1024x512_S4096x512_1_0_0_1_n_n none a W) (rows512 b)

/-- The second rectifier. -/
def relu2T (a : C (F := F) S4096x512) : C (F := F) S4096x512 :=
  maximumf a (broadcastInDim S4096x512 ![] bcast_S_S4096x512 (constant S_ .f32 0x00000000#32))

/-- The third layer. -/
def lin3T (a : C (F := F) S4096x512) (W : C (F := F) S512x256) (b : C (F := F) S256) : C (F := F) S4096x256 :=
  addf (Host.dotGeneral dot_S4096x512_S512x256_S4096x256_1_0_0_1_n_n none a W)
    (broadcastInDim S4096x256 ![0, 1] bcast_S1x256_S4096x256_0_1 (broadcastInDim S1x256 ![1] bcast_S256_S1x256_1 b))

/-- The reference's result. -/
def refTerm (a0 : (⟨S4096x32x20, .i32⟩ : BufTy).Contents (Elt F)) (a1 : C (F := F) S1000000x16) (a2 a3 : C (F := F) S512)
    (a4 : C (F := F) S512x1024) (a5 : C (F := F) S1024) (a6 : C (F := F) S1024x512) (a7 : C (F := F) S512)
    (a8 : C (F := F) S512x256) (a9 : C (F := F) S256) : C (F := F) S4096x256 :=
  lin3T (relu2T (lin2T (relu1T (lin1T (normT (xFront a0 a1) a2 a3) a4 a5)) a6 a7)) a8 a9

end Cert.ReferenceIdeal.RTerm

end
-- ==== Proof.RRun.lean ====
/-
  The reference's run: its @main is a straight line of host operations, four of them calls whose bodies (the variance
  with its inner select, two rectifiers) are executed in place on the call's own buffers. Every weakly fair execution
  terminates with the result buffer at the composed term of the ten arguments and the arguments unchanged.
-/
import proofs.«112534_j3607772528806_1_alg».proof.Proof.Gen.ReferenceIdeal
import proofs.«112534_j3607772528806_1_alg».proof.Proof.RTerm
import Idealize.ShloMosaic.Lib.StableHlo.Run
import Idealize.ShloMosaic.Lib.Tactic

noncomputable section

namespace Cert.ReferenceIdeal.RRun

open Cert.ReferenceIdeal Cert.ReferenceIdeal.Gen
open Idealize.ShloMosaic Idealize.ShloMosaic.TcCoe Idealize.SL.Sem Idealize.ShloMosaic.StableHlo

variable {F : FTy → Type} [FloatOps F]

/-- The seventy-four operations of @main in order, each call's body listed in place over that call's buffers: eighteen
    up to the batch and its column means, the variance's nineteen with its select's three, twenty for the normalised
    batch and the first layer, the first rectifier's three, the second layer's four, the second rectifier's three, the
    third layer's four. -/
abbrev ops : List (HloOp τ sig (Elt F)) :=
  [ StableHlo.nullary main_c (constantI S_ 32 0#32),
    StableHlo.unary main_c main_v0 (broadcastInDim S4096x32x20 ![] bcast_S_S4096x32x20 : (⟨S_, .i32⟩ : BufTy).Contents (Elt F) → (⟨S4096x32x20, .i32⟩ : BufTy).Contents (Elt F)),
    StableHlo.binary main_arg0 main_v0 main_v1 (cmpi .slt : (⟨S4096x32x20, .i32⟩ : BufTy).Contents (Elt F) → (⟨S4096x32x20, .i32⟩ : BufTy).Contents (Elt F) → (⟨S4096x32x20, .i1⟩ : BufTy).Contents (Elt F)),
    StableHlo.nullary main_c_0 (constantI S_ 32 1000000#32),
    StableHlo.unary main_c_0 main_v2 (broadcastInDim S4096x32x20 ![] bcast_S_S4096x32x20 : (⟨S_, .i32⟩ : BufTy).Contents (Elt F) → (⟨S4096x32x20, .i32⟩ : BufTy).Contents (Elt F)),
    StableHlo.binary main_arg0 main_v2 main_v3 (addi : (⟨S4096x32x20, .i32⟩ : BufTy).Contents (Elt F) → (⟨S4096x32x20, .i32⟩ : BufTy).Contents (Elt F) → (⟨S4096x32x20, .i32⟩ : BufTy).Contents (Elt F)),
    StableHlo.ternary main_v1 main_v3 main_arg0 main_v4 (select : (⟨S4096x32x20, .i1⟩ : BufTy).Contents (Elt F) → (⟨S4096x32x20, .i32⟩ : BufTy).Contents (Elt F) → (⟨S4096x32x20, .i32⟩ : BufTy).Contents (Elt F) → (⟨S4096x32x20, .i32⟩ : BufTy).Contents (Elt F)),
    StableHlo.unary main_v4 main_v5 (broadcastInDim S4096x32x20x1 ![0, 1, 2] bcast_S4096x32x20_S4096x32x20x1_0_1_2 : (⟨S4096x32x20, .i32⟩ : BufTy).Contents (Elt F) → (⟨S4096x32x20x1, .i32⟩ : BufTy).Contents (Elt F)),
    StableHlo.binary main_arg1 main_v5 main_v6 ((fun x i => Host.gather gather_S1000000x16_S4096x32x20x1_S4096x32x20x16_3_0_n_n_0_3_116 x i) : (⟨S1000000x16, .f32⟩ : BufTy).Contents (Elt F) → (⟨S4096x32x20x1, .i32⟩ : BufTy).Contents (Elt F) → (⟨S4096x32x20x16, .f32⟩ : BufTy).Contents (Elt F)),
    StableHlo.nullary main_cst (constant S_ .f32 0x00000000#32),
    StableHlo.binary main_v6 main_cst main_v7 ((fun x v => Host.reduceAdd x v reducesTo_S4096x32x20x16_S4096x32x16_d2 h_S_) : (⟨S4096x32x20x16, .f32⟩ : BufTy).Contents (Elt F) → (⟨S_, .f32⟩ : BufTy).Contents (Elt F) → (⟨S4096x32x16, .f32⟩ : BufTy).Contents (Elt F)),
    StableHlo.reshape main_v7 main_v8 rfl shapeCasts_S4096x32x16_S4096x512,
    StableHlo.nullary main_cst_1 (constant S_ .f32 0x00000000#32),
    StableHlo.binary main_v8 main_cst_1 main_v9 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    StableHlo.nullary main_cst_2 (constant S_ .f32 0x45800000#32),
    StableHlo.unary main_cst_2 main_v10 (broadcastInDim S512 ![] bcast_S_S512 : (⟨S_, .f32⟩ : BufTy).Contents (Elt F) → (⟨S512, .f32⟩ : BufTy).Contents (Elt F)),
    StableHlo.binary main_v9 main_v10 main_v11 (Host.divf : (⟨S512, .f32⟩ : BufTy).Contents (Elt F) → (⟨S512, .f32⟩ : BufTy).Contents (Elt F) → (⟨S512, .f32⟩ : BufTy).Contents (Elt F)),
    StableHlo.nullary main_c_3 (constantI S_ 32 0#32),
    StableHlo.TRef.nullary main_call0.cst (constant S_ .f32 0x00000000#32),
    StableHlo.TRef.binary (.of main_v8 : TRef sig ⟨S4096x512, .f32⟩) main_call0.cst main_call0.v0 (fun x v => Host.reduceAdd x v reducesTo_S4096x512_S512_d0 h_S_),
    StableHlo.TRef.unary main_call0.v0 main_call0.v1 (broadcastInDim S1x512 ![1] bcast_S512_S1x512_1),
    StableHlo.TRef.nullary main_call0.cst_0 (constant S_ .f32 0x45800000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S4096x512 ![0, 1] bcast_S1x512_S4096x512_0_1),
    StableHlo.TRef.binary (.of main_v8 : TRef sig ⟨S4096x512, .f32⟩) main_call0.v4 main_call0.v5 subf,
    StableHlo.TRef.binary main_call0.v5 main_call0.v5 main_call0.v6 mulf,
    StableHlo.TRef.unary (.of main_c_3 : TRef sig ⟨S_, .i32⟩) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4096x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v11 main_v13 (broadcastInDim S1x512 ![1] bcast_S512_S1x512_1 : (⟨S512, .f32⟩ : BufTy).Contents (Elt F) → (⟨S1x512, .f32⟩ : BufTy).Contents (Elt F)),
    StableHlo.unary main_v13 main_v14 (broadcastInDim S4096x512 ![0, 1] bcast_S1x512_S4096x512_0_1 : (⟨S1x512, .f32⟩ : BufTy).Contents (Elt F) → (⟨S4096x512, .f32⟩ : BufTy).Contents (Elt F)),
    StableHlo.binary main_v8 main_v14 main_v15 (subf : (⟨S4096x512, .f32⟩ : BufTy).Contents (Elt F) → (⟨S4096x512, .f32⟩ : BufTy).Contents (Elt F) → (⟨S4096x512, .f32⟩ : BufTy).Contents (Elt F)),
    StableHlo.nullary main_cst_4 (constant S_ .f32 0x3727C5AC#32),
    StableHlo.unary main_cst_4 main_v16 (broadcastInDim S512 ![] bcast_S_S512 : (⟨S_, .f32⟩ : BufTy).Contents (Elt F) → (⟨S512, .f32⟩ : BufTy).Contents (Elt F)),
    StableHlo.binary main_v12 main_v16 main_v17 (addf : (⟨S512, .f32⟩ : BufTy).Contents (Elt F) → (⟨S512, .f32⟩ : BufTy).Contents (Elt F) → (⟨S512, .f32⟩ : BufTy).Contents (Elt F)),
    StableHlo.unary main_v17 main_v18 (Host.rsqrt : (⟨S512, .f32⟩ : BufTy).Contents (Elt F) → (⟨S512, .f32⟩ : BufTy).Contents (Elt F)),
    StableHlo.unary main_v18 main_v19 (broadcastInDim S1x512 ![1] bcast_S512_S1x512_1 : (⟨S512, .f32⟩ : BufTy).Contents (Elt F) → (⟨S1x512, .f32⟩ : BufTy).Contents (Elt F)),
    StableHlo.unary main_v19 main_v20 (broadcastInDim S4096x512 ![0, 1] bcast_S1x512_S4096x512_0_1 : (⟨S1x512, .f32⟩ : BufTy).Contents (Elt F) → (⟨S4096x512, .f32⟩ : BufTy).Contents (Elt F)),
    StableHlo.binary main_v15 main_v20 main_v21 (mulf : (⟨S4096x512, .f32⟩ : BufTy).Contents (Elt F) → (⟨S4096x512, .f32⟩ : BufTy).Contents (Elt F) → (⟨S4096x512, .f32⟩ : BufTy).Contents (Elt F)),
    StableHlo.unary main_arg2 main_v22 (broadcastInDim S1x512 ![1] bcast_S512_S1x512_1 : (⟨S512, .f32⟩ : BufTy).Contents (Elt F) → (⟨S1x512, .f32⟩ : BufTy).Contents (Elt F)),
    StableHlo.unary main_v22 main_v23 (broadcastInDim S4096x512 ![0, 1] bcast_S1x512_S4096x512_0_1 : (⟨S1x512, .f32⟩ : BufTy).Contents (Elt F) → (⟨S4096x512, .f32⟩ : BufTy).Contents (Elt F)),
    StableHlo.binary main_v21 main_v23 main_v24 (mulf : (⟨S4096x512, .f32⟩ : BufTy).Contents (Elt F) → (⟨S4096x512, .f32⟩ : BufTy).Contents (Elt F) → (⟨S4096x512, .f32⟩ : BufTy).Contents (Elt F)),
    StableHlo.unary main_arg3 main_v25 (broadcastInDim S1x512 ![1] bcast_S512_S1x512_1 : (⟨S512, .f32⟩ : BufTy).Contents (Elt F) → (⟨S1x512, .f32⟩ : BufTy).Contents (Elt F)),
    StableHlo.unary main_v25 main_v26 (broadcastInDim S4096x512 ![0, 1] bcast_S1x512_S4096x512_0_1 : (⟨S1x512, .f32⟩ : BufTy).Contents (Elt F) → (⟨S4096x512, .f32⟩ : BufTy).Contents (Elt F)),
    StableHlo.binary main_v24 main_v26 main_v27 (addf : (⟨S4096x512, .f32⟩ : BufTy).Contents (Elt F) → (⟨S4096x512, .f32⟩ : BufTy).Contents (Elt F) → (⟨S4096x512, .f32⟩ : BufTy).Contents (Elt F)),
    StableHlo.binary main_v27 main_arg4 main_v28 ((fun l r => Host.dotGeneral dot_S4096x512_S512x1024_S4096x1024_1_0_0_1_n_n none l r) : (⟨S4096x512, .f32⟩ : BufTy).Contents (Elt F) → (⟨S512x1024, .f32⟩ : BufTy).Contents (Elt F) → (⟨S4096x1024, .f32⟩ : BufTy).Contents (Elt F)),
    StableHlo.unary main_arg5 main_v29 (broadcastInDim S1x1024 ![1] bcast_S1024_S1x1024_1 : (⟨S1024, .f32⟩ : BufTy).Contents (Elt F) → (⟨S1x1024, .f32⟩ : BufTy).Contents (Elt F)),
    StableHlo.unary main_v29 main_v30 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v28 main_v30 main_v31 (addf : (⟨S4096x1024, .f32⟩ : BufTy).Contents (Elt F) → (⟨S4096x1024, .f32⟩ : BufTy).Contents (Elt F) → (⟨S4096x1024, .f32⟩ : BufTy).Contents (Elt F)),
    StableHlo.TRef.nullary main_call1.cst (constant S_ .f32 0x00000000#32),
    StableHlo.TRef.unary main_call1.cst main_call1.v0 (broadcastInDim S4096x1024 ![] bcast_S_S4096x1024),
    StableHlo.TRef.binary (.of main_v31 : TRef sig ⟨S4096x1024, .f32⟩) main_call1.v0 main_call1.v1 maximumf,
    StableHlo.binary main_v32 main_arg6 main_v33 ((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F)),
    StableHlo.unary main_arg7 main_v34 (broadcastInDim S1x512 ![1] bcast_S512_S1x512_1 : (⟨S512, .f32⟩ : BufTy).Contents (Elt F) → (⟨S1x512, .f32⟩ : BufTy).Contents (Elt F)),
    StableHlo.unary main_v34 main_v35 (broadcastInDim S4096x512 ![0, 1] bcast_S1x512_S4096x512_0_1 : (⟨S1x512, .f32⟩ : BufTy).Contents (Elt F) → (⟨S4096x512, .f32⟩ : BufTy).Contents (Elt F)),
    StableHlo.binary main_v33 main_v35 main_v36 (addf : (⟨S4096x512, .f32⟩ : BufTy).Contents (Elt F) → (⟨S4096x512, .f32⟩ : BufTy).Contents (Elt F) → (⟨S4096x512, .f32⟩ : BufTy).Contents (Elt F)),
    StableHlo.TRef.nullary main_call2.cst (constant S_ .f32 0x00000000#32),
    StableHlo.TRef.unary main_call2.cst main_call2.v0 (broadcastInDim S4096x512 ![] bcast_S_S4096x512),
    StableHlo.TRef.binary (.of main_v36 : TRef sig ⟨S4096x512, .f32⟩) main_call2.v0 main_call2.v1 maximumf,
    StableHlo.binary main_v37 main_arg8 main_v38 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    StableHlo.unary main_arg9 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S4096x256 ![0, 1] bcast_S1x256_S4096x256_0_1 : (⟨S1x256, .f32⟩ : BufTy).Contents (Elt F) → (⟨S4096x256, .f32⟩ : BufTy).Contents (Elt F)),
    StableHlo.binary main_v38 main_v40 main_v41 (addf : (⟨S4096x256, .f32⟩ : BufTy).Contents (Elt F) → (⟨S4096x256, .f32⟩ : BufTy).Contents (Elt F) → (⟨S4096x256, .f32⟩ : BufTy).Contents (Elt F)) ]

set_option maxRecDepth 8192 in
/-- @main is that straight line: with the callees' definitions unfolded at their calls and sequencing reassociated, both
    sides are one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub ..⟩

set_option maxRecDepth 8192 in
/-- The result buffer after the line is the composed term of the arguments. -/
theorem out_eq (V : Valuation τ sig (Elt F)) :
    after ops V (main_v41 : DevRef τ sig)
      = RTerm.refTerm (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

/-! The ten arguments are buffers no operation writes: each keeps its contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-- The run, read: the result at the composed term, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = RTerm.refTerm (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ?_)
    (run_seq scopedRefs_eq scopedSems_eq defs main (fun _ => ops) main_eq (fun _ => ops_sub) m ρ)
  exact ⟨(h c main_v41).trans (out_eq _), (h c main_arg0).trans (arg0_eq _), (h c main_arg1).trans (arg1_eq _),
    (h c main_arg2).trans (arg2_eq _), (h c main_arg3).trans (arg3_eq _), (h c main_arg4).trans (arg4_eq _),
    (h c main_arg5).trans (arg5_eq _), (h c main_arg6).trans (arg6_eq _), (h c main_arg7).trans (arg7_eq _),
    (h c main_arg8).trans (arg8_eq _), (h c main_arg9).trans (arg9_eq _)⟩

end Cert.ReferenceIdeal.RRun

end
-- ==== Proof.LibHostRead.lean ====
/-
  General lemmas for reading a host program's operations at an index, at the ideal instance.

  * `hostDotGeneral_plain_apply`: the host's product of an [M, K] operand with a [K, N] operand, read at (p, j), is the
    sum over k of lhs (p, k) · rhs (k, j), for any record of dimension numbers whose four axis facts are given (the
    host's product is the kernel's product into a zero accumulator).
  * `hostReduceAdd_rows_apply`: the host's sum of an [R, K] array along its last axis, read at row r, is the initial
    value plus the sum over k of the array at (r, k).
  * `broadcastInDim_vec_row_apply`: a vector of n entries laid out as the one row of a [1, n] array reads, at (u, k),
    the vector at k.
  * `broadcastInDim_vec_col_apply`: a vector of n entries laid out as the one column of an [n, 1] array reads, at
    (r, u), the vector at r.
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import proofs.«112534_j3607772528806_1_alg».proof.Proof.LibPlainDot

noncomputable section

namespace Cert.LibHostRead

open Idealize.ShloMosaic Idealize.ShloMosaic.ValueIdx

/-- The host's plain two-operand matrix product read at (p, j): ∑ₖ lhs (p, k) · rhs (k, j). -/
theorem hostDotGeneral_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    Host.dotGeneral d prec lhs rhs (ix2 p j) = ∑ k : Fin K, lhs (ix2 p k) * rhs (ix2 k j) := by
  rw [← matmul_zero_eq_dotGeneral]
  exact Cert.Lib.matmul_plain_apply d hr hs hl0 hl1 hr0 hr1 prec lhs rhs p j

/-- The host's row-wise sum of an [R, K] array read at row r: the initial value plus ∑ₖ x (r, k). -/
theorem hostReduceAdd_rows_apply {R K : ℕ} {φ : FTy} (x : FVec Ideal ⟨2, ![R, K]⟩ φ) (init : (⟨0, ![]⟩ : Shape).Idx → Ideal φ)
    (h' : (⟨2, ![R, K]⟩ : Shape).ReducesTo [1] ⟨1, ![R]⟩) (hu : 0 < (⟨0, ![]⟩ : Shape).numel)
    (h : (⟨2, ![R, K]⟩ : Shape).Reduces [1] ⟨1, ![R]⟩) (r : Fin R) :
    Host.reduceAdd x init h' hu (ix1 r) = init ix0 + ∑ k : Fin K, x (ix2 r k) := by
  rw [hostReduceAdd_apply]
  refine (Ideal.hostReduceAdd_single h' h x _ (ix1 r)).trans ?_
  refine congr (congrArg (· + ·) (congrArg init (eq_ix0 _))) (Finset.sum_congr rfl fun k _ => ?_)
  exact congrArg x (funext fun a => Fin.ext (by match a with | ⟨0, _⟩ => rfl | ⟨1, _⟩ => rfl))

variable {α : Type}

/-- A vector laid out as the one row of a [1, n] array reads, at (u, k), the vector at k. -/
theorem broadcastInDim_vec_row_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) fun a => ?_
  match a with
  | ⟨0, _⟩ =>
    show k.val = if n = 1 then 0 else k.val
    split
    · have := k.isLt; omega
    · rfl

/-- A vector laid out as the one column of an [n, 1] array reads, at (r, u), the vector at r. -/
theorem broadcastInDim_vec_col_apply {n : ℕ} (h : (⟨1, ![n]⟩ : Shape).BroadcastsInDim ⟨2, ![n, 1]⟩ ![0])
    (v : (⟨1, ![n]⟩ : Shape).Idx → α) (r : Fin n) (u : Fin 1) :
    broadcastInDim ⟨2, ![n, 1]⟩ ![0] h v (ix2 r u) = v (ix1 r) := by
  refine broadcastInDim_apply ![0] h v (ix2 r u) (ix1 r) fun a => ?_
  match a with
  | ⟨0, _⟩ =>
    show r.val = if n = 1 then 0 else r.val
    split
    · have := r.isLt; omega
    · rfl

end Cert.LibHostRead

end
-- ==== Proof.RRead.lean ====
/-
  The reference's composed term, read at an index: it is the three layers applied to the centre-then-scale normal form of
  the batch. The select around the variance keeps the quotient (the divisor 4096 - 0 is positive); the column mean and
  the row-spread mean recomputed inside the variance are the same number; a host sum from the zero word is the plain sum;
  a host matrix product read at (r, j) is the sum over the contracted index.
-/
import proofs.«112534_j3607772528806_1_alg».proof.Proof.Gen.ReferenceIdeal
import proofs.«112534_j3607772528806_1_alg».proof.Proof.RTerm
import proofs.«112534_j3607772528806_1_alg».proof.Proof.Spec
import proofs.«112534_j3607772528806_1_alg».proof.Proof.LibHostRead
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost

noncomputable section

namespace Cert.ReferenceIdeal.RRead

open Cert.ReferenceIdeal Cert.ReferenceIdeal.Gen
open Idealize.ShloMosaic Idealize.ShloMosaic.ValueIdx

/-! ## Column sums, means, the centred batch -/

/-- The host's sum of an [R, K] array down its rows, read at column d: the initial value plus ∑ over the rows of x (b, d). -/
theorem hostReduceAdd_cols_apply {R K : ℕ} {φ : FTy} (x : FVec Ideal ⟨2, ![R, K]⟩ φ) (init : (⟨0, ![]⟩ : Shape).Idx → Ideal φ)
    (h' : (⟨2, ![R, K]⟩ : Shape).ReducesTo [0] ⟨1, ![K]⟩) (hu : 0 < (⟨0, ![]⟩ : Shape).numel)
    (h : (⟨2, ![R, K]⟩ : Shape).Reduces [0] ⟨1, ![K]⟩) (d : Fin K) :
    Host.reduceAdd x init h' hu (ix1 d) = init ix0 + ∑ b : Fin R, x (ix2 b d) := by
  rw [hostReduceAdd_apply]
  refine (Ideal.hostReduceAdd_single h' h x _ (ix1 d)).trans ?_
  refine congr (congrArg (· + ·) (congrArg init (eq_ix0 _))) (Finset.sum_congr rfl fun k _ => ?_)
  exact congrArg x (funext fun a => Fin.ext (by match a with | ⟨0, _⟩ => rfl | ⟨1, _⟩ => rfl))

theorem reduces_cols : S4096x512.Reduces [0] S512 := by decide

/-- The column sums are the specification's. -/
theorem sumT_apply (x : Spec.Mat 4096 512) (d : Fin 512) : RTerm.sumT (F := Ideal) x (ix1 d) = Spec.colSum x d := by
  unfold RTerm.sumT Spec.colSum
  rw [hostReduceAdd_cols_apply x _ _ _ reduces_cols d, constant_apply, Ideal.ofBits_zero_f32, zero_add]

/-- The column means are the specification's. -/
theorem meanT_apply (x : Spec.Mat 4096 512) (d : Fin 512) : RTerm.meanT (F := Ideal) x (ix1 d) = Spec.mean x d := by
  unfold RTerm.meanT Spec.mean Spec.meanS
  rw [hostDivf_apply, sumT_apply, broadcastInDim_scalar_apply, constant_apply]
  rfl

/-- The centred batch at (b, d). -/
theorem centredT_apply (x : Spec.Mat 4096 512) (b : Fin 4096) (d : Fin 512) :
    RTerm.centredT (F := Ideal) x (ix2 b d) = x (ix2 b d) - Spec.mean x d := by
  unfold RTerm.centredT
  rw [subf_apply, broadcastInDim_oneRow_apply, hostDivf_apply, LibHostRead.broadcastInDim_vec_row_apply, sumT_apply,
    broadcastInDim_scalar_apply, constant_apply]
  rfl

/-- A vector spread down the rows reads, at (b, d), the vector at d. -/
theorem rows512_apply (v : Spec.Vc 512) (b : Fin 4096) (d : Fin 512) : RTerm.rows512 (F := Ideal) v (ix2 b d) = v (ix1 d) := by
  unfold RTerm.rows512
  rw [broadcastInDim_oneRow_apply, LibHostRead.broadcastInDim_vec_row_apply]

/-! ## The divisor and the variance -/

/-- The batch size's float pattern is the real 4096. -/
theorem nB_eq : Spec.nB = ((4096 : ℝ) : EReal) := by
  unfold Spec.nB
  simp [Ideal.ofBits, Ideal.ieee, -EReal.coe_mul]; norm_num

theorem nB_pos : (0 : EReal) < Spec.nB := by
  rw [nB_eq]; exact_mod_cast (by norm_num : (0 : ℝ) < 4096)

/-- The divisor is the batch size: the correction is the integer zero converted. -/
theorem divisorT_apply (i : S_.Idx) : RTerm.divisorT (F := Ideal) i = Spec.nB := by
  unfold RTerm.divisorT
  rw [subf_apply, constant_apply, sitofp_apply, constantI_apply]
  show Spec.nB - (Scalar.sitofp .f32 0#32 : Ideal .f32) = Spec.nB
  rw [sitofp_zero, sub_zero]

/-- The divisor is positive, so the compare answers one. -/
theorem divisor_pos_bit (i : S_.Idx) :
    cmpf .ogt (RTerm.divisorT (F := Ideal)) (constant (F := Ideal) S_ .f32 0x00000000#32) i = 1#1 := by
  rw [cmpf_apply, divisorT_apply, constant_apply, Ideal.ofBits_zero_f32, Ideal.cmpf_def]
  unfold Ideal.cmp
  simp [nB_pos]

/-- The column variances are the specification's mean of squared deviations. -/
theorem varT_apply (x : Spec.Mat 4096 512) (d : Fin 512) : RTerm.varT (F := Ideal) x (ix1 d) = Spec.varR x d := by
  unfold RTerm.varT Spec.varR
  rw [select_apply, broadcastInDim_scalar_apply, divisor_pos_bit, select_one, hostDivf_apply,
    hostReduceAdd_cols_apply _ _ _ _ reduces_cols d, constant_apply, Ideal.ofBits_zero_f32, zero_add,
    broadcastInDim_scalar_apply, divisorT_apply]
  refine congrArg (fun s => Ideal.div s Spec.nB) (Finset.sum_congr rfl fun b _ => ?_)
  rw [mulf_apply, centredT_apply]

/-! ## The normalised batch -/

theorem hostRsqrt_apply {s : Shape} {φ : FTy} (a : FVec Ideal s φ) (i : s.Idx) : Host.rsqrt a i = Ideal.rsqrt (a i) := rfl

/-- The normalised batch is the specification's centre-then-scale form. -/
theorem normT_apply (x : Spec.Mat 4096 512) (g b : Spec.Vc 512) (r : Fin 4096) (d : Fin 512) :
    RTerm.normT (F := Ideal) x g b (ix2 r d) = Spec.xnR x g b (ix2 r d) := by
  unfold RTerm.normT Spec.xnR
  rw [addf_apply, mulf_apply, mulf_apply, subf_apply, rows512_apply, rows512_apply, rows512_apply, rows512_apply,
    meanT_apply, hostRsqrt_apply, addf_apply, varT_apply, broadcastInDim_scalar_apply, constant_apply]
  rfl

/-! ## The layers -/

theorem lhs_dot1_0 (i : S4096x1024.Idx) (q : dot_S4096x512_S512x1024_S4096x1024_1_0_0_1_n_n.contr.Idx) :
    (dot_S4096x512_S512x1024_S4096x1024_1_0_0_1_n_n.lhsIdx i q 0).val = (i 0).val := by
  simp [DotDims.lhsIdx, dot_S4096x512_S512x1024_S4096x1024_1_0_0_1_n_n]; rfl
theorem lhs_dot1_1 (i : S4096x1024.Idx) (q : dot_S4096x512_S512x1024_S4096x1024_1_0_0_1_n_n.contr.Idx) :
    (dot_S4096x512_S512x1024_S4096x1024_1_0_0_1_n_n.lhsIdx i q 1).val = (q ⟨0, by decide⟩).val := by
  simp [DotDims.lhsIdx, dot_S4096x512_S512x1024_S4096x1024_1_0_0_1_n_n]; rfl
theorem rhs_dot1_0 (i : S4096x1024.Idx) (q : dot_S4096x512_S512x1024_S4096x1024_1_0_0_1_n_n.contr.Idx) :
    (dot_S4096x512_S512x1024_S4096x1024_1_0_0_1_n_n.rhsIdx i q 0).val = (q ⟨0, by decide⟩).val := by
  simp [DotDims.rhsIdx, dot_S4096x512_S512x1024_S4096x1024_1_0_0_1_n_n]; rfl
theorem rhs_dot1_1 (i : S4096x1024.Idx) (q : dot_S4096x512_S512x1024_S4096x1024_1_0_0_1_n_n.contr.Idx) :
    (dot_S4096x512_S512x1024_S4096x1024_1_0_0_1_n_n.rhsIdx i q 1).val = (i 1).val := by
  simp [DotDims.rhsIdx, dot_S4096x512_S512x1024_S4096x1024_1_0_0_1_n_n]; rfl

/-- The product at (r, j): the sum over the contracted index. -/
theorem dot1_apply (a : Spec.Mat 4096 512) (W : Spec.Mat 512 1024) (r : Fin 4096) (j : Fin 1024) :
    Host.dotGeneral (F := Ideal) (φ₁ := .f32) (φ₂ := .f32) dot_S4096x512_S512x1024_S4096x1024_1_0_0_1_n_n none a W (ix2 r j)
      = ∑ k : Fin 512, a (ix2 r k) * W (ix2 k j) :=
  LibHostRead.hostDotGeneral_plain_apply (φ₁ := .f32) (φ₂ := .f32) dot_S4096x512_S512x1024_S4096x1024_1_0_0_1_n_n rfl rfl
    lhs_dot1_0 lhs_dot1_1 rhs_dot1_0 rhs_dot1_1 none a W r j

theorem lhs_dot2_0 (i : S4096x512.Idx) (q : dot_S4096x1024_S1024x512_S4096x512_1_0_0_1_n_n.contr.Idx) :
    (dot_S4096x1024_S1024x512_S4096x512_1_0_0_1_n_n.lhsIdx i q 0).val = (i 0).val := by
  simp [DotDims.lhsIdx, dot_S4096x1024_S1024x512_S4096x512_1_0_0_1_n_n]; rfl
theorem lhs_dot2_1 (i : S4096x512.Idx) (q : dot_S4096x1024_S1024x512_S4096x512_1_0_0_1_n_n.contr.Idx) :
    (dot_S4096x1024_S1024x512_S4096x512_1_0_0_1_n_n.lhsIdx i q 1).val = (q ⟨0, by decide⟩).val := by
  simp [DotDims.lhsIdx, dot_S4096x1024_S1024x512_S4096x512_1_0_0_1_n_n]; rfl
theorem rhs_dot2_0 (i : S4096x512.Idx) (q : dot_S4096x1024_S1024x512_S4096x512_1_0_0_1_n_n.contr.Idx) :
    (dot_S4096x1024_S1024x512_S4096x512_1_0_0_1_n_n.rhsIdx i q 0).val = (q ⟨0, by decide⟩).val := by
  simp [DotDims.rhsIdx, dot_S4096x1024_S1024x512_S4096x512_1_0_0_1_n_n]; rfl
theorem rhs_dot2_1 (i : S4096x512.Idx) (q : dot_S4096x1024_S1024x512_S4096x512_1_0_0_1_n_n.contr.Idx) :
    (dot_S4096x1024_S1024x512_S4096x512_1_0_0_1_n_n.rhsIdx i q 1).val = (i 1).val := by
  simp [DotDims.rhsIdx, dot_S4096x1024_S1024x512_S4096x512_1_0_0_1_n_n]; rfl

/-- The product at (r, j): the sum over the contracted index. -/
theorem dot2_apply (a : Spec.Mat 4096 1024) (W : Spec.Mat 1024 512) (r : Fin 4096) (j : Fin 512) :
    Host.dotGeneral (F := Ideal) (φ₁ := .f32) (φ₂ := .f32) dot_S4096x1024_S1024x512_S4096x512_1_0_0_1_n_n none a W (ix2 r j)
      = ∑ k : Fin 1024, a (ix2 r k) * W (ix2 k j) :=
  LibHostRead.hostDotGeneral_plain_apply (φ₁ := .f32) (φ₂ := .f32) dot_S4096x1024_S1024x512_S4096x512_1_0_0_1_n_n rfl rfl
    lhs_dot2_0 lhs_dot2_1 rhs_dot2_0 rhs_dot2_1 none a W r j

theorem lhs_dot3_0 (i : S4096x256.Idx) (q : dot_S4096x512_S512x256_S4096x256_1_0_0_1_n_n.contr.Idx) :
    (dot_S4096x512_S512x256_S4096x256_1_0_0_1_n_n.lhsIdx i q 0).val = (i 0).val := by
  simp [DotDims.lhsIdx, dot_S4096x512_S512x256_S4096x256_1_0_0_1_n_n]; rfl
theorem lhs_dot3_1 (i : S4096x256.Idx) (q : dot_S4096x512_S512x256_S4096x256_1_0_0_1_n_n.contr.Idx) :
    (dot_S4096x512_S512x256_S4096x256_1_0_0_1_n_n.lhsIdx i q 1).val = (q ⟨0, by decide⟩).val := by
  simp [DotDims.lhsIdx, dot_S4096x512_S512x256_S4096x256_1_0_0_1_n_n]; rfl
theorem rhs_dot3_0 (i : S4096x256.Idx) (q : dot_S4096x512_S512x256_S4096x256_1_0_0_1_n_n.contr.Idx) :
    (dot_S4096x512_S512x256_S4096x256_1_0_0_1_n_n.rhsIdx i q 0).val = (q ⟨0, by decide⟩).val := by
  simp [DotDims.rhsIdx, dot_S4096x512_S512x256_S4096x256_1_0_0_1_n_n]; rfl
theorem rhs_dot3_1 (i : S4096x256.Idx) (q : dot_S4096x512_S512x256_S4096x256_1_0_0_1_n_n.contr.Idx) :
    (dot_S4096x512_S512x256_S4096x256_1_0_0_1_n_n.rhsIdx i q 1).val = (i 1).val := by
  simp [DotDims.rhsIdx, dot_S4096x512_S512x256_S4096x256_1_0_0_1_n_n]; rfl

/-- The product at (r, j): the sum over the contracted index. -/
theorem dot3_apply (a : Spec.Mat 4096 512) (W : Spec.Mat 512 256) (r : Fin 4096) (j : Fin 256) :
    Host.dotGeneral (F := Ideal) (φ₁ := .f32) (φ₂ := .f32) dot_S4096x512_S512x256_S4096x256_1_0_0_1_n_n none a W (ix2 r j)
      = ∑ k : Fin 512, a (ix2 r k) * W (ix2 k j) :=
  LibHostRead.hostDotGeneral_plain_apply (φ₁ := .f32) (φ₂ := .f32) dot_S4096x512_S512x256_S4096x256_1_0_0_1_n_n rfl rfl
    lhs_dot3_0 lhs_dot3_1 rhs_dot3_0 rhs_dot3_1 none a W r j

/-- The first layer is the specification's. -/
theorem lin1T_eq (a : Spec.Mat 4096 512) (W : Spec.Mat 512 1024) (b : Spec.Vc 1024) :
    RTerm.lin1T (F := Ideal) a W b = Spec.lin a W b := by
  funext i
  obtain ⟨r, j, rfl⟩ : ∃ (r : Fin 4096) (j : Fin 1024), i = ix2 r j := ⟨i 0, i 1, eq_ix2 i⟩
  unfold RTerm.lin1T Spec.lin
  rw [addf_apply, dot1_apply, broadcastInDim_oneRow_apply, LibHostRead.broadcastInDim_vec_row_apply]

/-- The second layer is the specification's. -/
theorem lin2T_eq (a : Spec.Mat 4096 1024) (W : Spec.Mat 1024 512) (b : Spec.Vc 512) :
    RTerm.lin2T (F := Ideal) a W b = Spec.lin a W b := by
  funext i
  obtain ⟨r, j, rfl⟩ : ∃ (r : Fin 4096) (j : Fin 512), i = ix2 r j := ⟨i 0, i 1, eq_ix2 i⟩
  unfold RTerm.lin2T Spec.lin
  rw [addf_apply, dot2_apply, rows512_apply]

/-- The third layer is the specification's. -/
theorem lin3T_eq (a : Spec.Mat 4096 512) (W : Spec.Mat 512 256) (b : Spec.Vc 256) :
    RTerm.lin3T (F := Ideal) a W b = Spec.lin a W b := by
  funext i
  obtain ⟨r, j, rfl⟩ : ∃ (r : Fin 4096) (j : Fin 256), i = ix2 r j := ⟨i 0, i 1, eq_ix2 i⟩
  unfold RTerm.lin3T Spec.lin
  rw [addf_apply, dot3_apply, broadcastInDim_oneRow_apply, LibHostRead.broadcastInDim_vec_row_apply]

/-- The first rectifier is the specification's. -/
theorem relu1T_eq (a : Spec.Mat 4096 1024) : RTerm.relu1T (F := Ideal) a = Spec.relu a := by
  funext i
  unfold RTerm.relu1T Spec.relu
  rw [maximumf_apply, broadcastInDim_scalar_apply, constant_apply, Ideal.ofBits_zero_f32]

/-- The second rectifier is the specification's. -/
theorem relu2T_eq (a : Spec.Mat 4096 512) : RTerm.relu2T (F := Ideal) a = Spec.relu a := by
  funext i
  unfold RTerm.relu2T Spec.relu
  rw [maximumf_apply, broadcastInDim_scalar_apply, constant_apply, Ideal.ofBits_zero_f32]

/-- The normalised batch, as an array. -/
theorem normT_eq (x : Spec.Mat 4096 512) (g b : Spec.Vc 512) : RTerm.normT (F := Ideal) x g b = Spec.xnR x g b := by
  funext i
  obtain ⟨r, d, rfl⟩ : ∃ (r : Fin 4096) (d : Fin 512), i = ix2 r d := ⟨i 0, i 1, eq_ix2 i⟩
  exact normT_apply x g b r d

/-- The reference's result is the three layers of the centre-then-scale normal form of the batch. -/
theorem refTerm_eq (a0 : (⟨S4096x32x20, .i32⟩ : BufTy).Contents (Elt Ideal)) (a1 : RTerm.C (F := Ideal) S1000000x16)
    (a2 a3 : RTerm.C (F := Ideal) S512) (a4 : RTerm.C (F := Ideal) S512x1024) (a5 : RTerm.C (F := Ideal) S1024)
    (a6 : RTerm.C (F := Ideal) S1024x512) (a7 : RTerm.C (F := Ideal) S512) (a8 : RTerm.C (F := Ideal) S512x256)
    (a9 : RTerm.C (F := Ideal) S256) :
    (RTerm.refTerm (F := Ideal) a0 a1 a2 a3 a4 a5 a6 a7 a8 a9 : Spec.Mat 4096 256)
      = Spec.mlp (Spec.xnR (RTerm.xFront (F := Ideal) a0 a1) a2 a3) a4 a5 a6 a7 a8 a9 := by
  unfold RTerm.refTerm Spec.mlp
  rw [lin3T_eq, relu2T_eq, lin2T_eq, relu1T_eq, lin1T_eq, normT_eq]

end Cert.ReferenceIdeal.RRead

end
-- ==== Proof.lean ====
/-
  The certificate: an embedding-bag batch (rows of a table gathered at integer indices and summed over twenty hits),
  batch-normalised over its 4096 rows and sent through three linear layers with rectifiers, computed two ways.

  One program computes the column sums and sums of squares in a first kernel region (an accumulator over eight row
  blocks), lets the host fold mean, variance, gamma and beta into one scale row and one shift row, and applies
  x * scale + shift and the three layers row block by row block in a second kernel region. The other is a plain host
  program that centres the batch, divides by the deviation, scales, shifts and multiplies.

  Over the extended reals, on finite inputs, both results are the three layers of the normalised batch:
    * the batch is literally the same term of the index array and the table on both sides;
    * the sum over 4096 rows is the sum over eight blocks of 512 rows, and a sum that starts from the zero word is the sum;
    * mean of squares minus squared mean is the mean of squared deviations, a nonnegative real; with the positive guard
      added its inverse square root is a real; x * (g r) + (b - mu (g r)) = (x - mu) r g + b by distributivity, which is
      where finiteness of the table, of gamma and of beta is used;
    * a matrix product of a row block is the row block of the matrix product, a narrowing of the float format is the
      identity, and the kernel's product into a zero accumulator is the host's product.
  The three frames are the generated frame runs of the two kernel programs and the reference's run with its result
  dropped; no operation was rewritten by the idealisation, so nothing is owed for it.
-/
import proofs.«112534_j3607772528806_1_alg».proof.Defs
import proofs.«112534_j3607772528806_1_alg».proof.Proof.Gen.Kernel
import proofs.«112534_j3607772528806_1_alg».proof.Proof.Gen.Kernel.Skeleton
import proofs.«112534_j3607772528806_1_alg».proof.Proof.Gen.Kernel.Launch
import proofs.«112534_j3607772528806_1_alg».proof.Proof.Gen.Kernel.Points
import proofs.«112534_j3607772528806_1_alg».proof.Proof.Gen.Kernel.Frame
import proofs.«112534_j3607772528806_1_alg».proof.Proof.Gen.KernelIdeal
import proofs.«112534_j3607772528806_1_alg».proof.Proof.Gen.KernelIdeal.Skeleton
import proofs.«112534_j3607772528806_1_alg».proof.Proof.Gen.KernelIdeal.Launch
import proofs.«112534_j3607772528806_1_alg».proof.Proof.Gen.KernelIdeal.Points
import proofs.«112534_j3607772528806_1_alg».proof.Proof.Gen.KernelIdeal.Frame
import proofs.«112534_j3607772528806_1_alg».proof.Proof.Gen.ReferenceIdeal
import proofs.«112534_j3607772528806_1_alg».proof.Proof.Gen.Pre_finite_inputs
import proofs.«112534_j3607772528806_1_alg».proof.Proof.KRun
import proofs.«112534_j3607772528806_1_alg».proof.Proof.KValue
import proofs.«112534_j3607772528806_1_alg».proof.Proof.RRun
import proofs.«112534_j3607772528806_1_alg».proof.Proof.RRead
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- The idealised program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RRun.run (F := Ideal) m ρ)

/-- The idealisation rewrote nothing. -/
theorem preserves : Cert.preserves_Kernel_KernelIdeal := trivial

/-- The batch is one term of the index array and the table in both programs. -/
theorem front_eq (a0 : (⟨Cert.KernelIdeal.S4096x32x20, .i32⟩ : BufTy).Contents (Elt Ideal))
    (a1 : (⟨Cert.KernelIdeal.S1000000x16, .f32⟩ : BufTy).Contents (Elt Ideal)) :
    Cert.ReferenceIdeal.RTerm.xFront (F := Ideal) a0 a1 = Cert.KernelIdeal.KFront.xFront (F := Ideal) a0 a1 := rfl

/-- From memories that agree on the arguments both programs end at the three layers of the normalised batch. -/
theorem algebraic : Cert.algebraic_KernelIdeal_ReferenceIdeal := by
  intro m ρ m' ρ' hpre hagree
  refine ⟨fun c => Cert.KernelIdeal.KValue.result m c, ?_, ?_⟩
  · exact (θ_run Cert.KernelIdeal.defs _ _).mono
      (fun _ h c => ⟨(h c).1.trans (Cert.KernelIdeal.KValue.value m ρ hpre c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RRun.run (F := Ideal) m' ρ')
    obtain ⟨h0, h1, h2, h3, h4, h5, h6, h7, h8, h9⟩ := hagree c
    rw [h0, h1, h2, h3, h4, h5, h6, h7, h8, h9]
    refine (Cert.ReferenceIdeal.RRead.refTerm_eq _ _ _ _ _ _ _ _ _ _).trans ?_
    rw [front_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
